-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg8 : FVec F S100000x64 .f32) (main_v33 : IVec S_ 1) : IVec S_ 1 :=
  let main_v34 : FVec F S100000x64 .f32 := Host.absf main_arg8
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg5 : FVec F S64 .f32) (main_arg6 : FVec F S128x64 .f32) (main_arg7 : FVec F S64 .f32) (main_arg8 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) (main_arg8 : FVec F S100000x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 112
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x256, .bf16⟩
  | .hbm, ⟨50, _⟩ => ⟨S256x128, .bf16⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .bf16⟩
  | .hbm, ⟨71, _⟩ => ⟨S128x64, .bf16⟩
  | .hbm, ⟨72, _⟩ => ⟨S128x64, .bf16⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S100000x64, .f32⟩
  | .local _ .vmem, ⟨0, _⟩ => ⟨S2000x256, .bf16⟩
  | .local _ .vmem, ⟨1, _⟩ => ⟨S2000x256, .bf16⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S128x64, .bf16⟩
  | .local _ .vmem, ⟨13, _⟩ => ⟨S2000x64, .f32⟩
  | .local _ .vmem, ⟨14, _⟩ => ⟨S2000x64, .f32⟩
  | .local _ .vmem, ⟨15, _⟩ => ⟨S2000x128, .bf16⟩
  | .local _ .vmem, ⟨16, _⟩ => ⟨S2000x128, .bf16⟩
  | .local _ .vmem, ⟨17, _⟩ => ⟨S128x64, .bf16⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S1x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81_0 : Ref sig .tc := ⟨.hbm, 109, rfl⟩
abbrev main_v81_1 : Ref sig .tc := ⟨.hbm, 110, rfl⟩
abbrev main_v81_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc4_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem4_1 : DmaSem sig := 27
abbrev cc4_sem5_0 : DmaSem sig := 28
abbrev cc4_sem5_1 : DmaSem sig := 29
abbrev cc4_sem6_0 : DmaSem sig := 30
abbrev cc4_sem6_1 : DmaSem sig := 31
abbrev cc4_sem7_0 : DmaSem sig := 32
abbrev cc4_sem7_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .bf16 = 32 ∨ (Rect.block (s := S100000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .bf16 = 32 ∨ (Rect.block (s := S100000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .bf16 = 32 ∨ (Rect.block (s := S128x64) S128x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S100000x64.size a
  hwx4_5 : ∀ i : grid4.Coords, EltTy.bits .f32 = 32 ∨ (Rect.block (s := S100000x64) S2000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x64.size a ≤ S100000x64.size a
  hwx4_7 : ∀ i : grid4.Coords, EltTy.bits .f32 = 32 ∨ (Rect.block (s := S100000x64) S2000x64.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v30) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S2000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v81_0) S2000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v81_1) S2000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v81_2) S2000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x1, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.HostKeep.lean ====
/-
  What the host stretches between the regions leave in the buffers the regions read, on the kernel's side, where no
  comparison with the reference is needed yet: a change of float format is the identity on the extended reals, a
  reshape of a bias vector [n] to a row [1, n] keeps entry q at (0, q), and a buffer that no later stretch or region
  writes keeps its contents.
-/
import proofs.«141266_j44220983280296_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen

section Generic

variable {F : FTy → Type} [FloatOps F]
variable (m : (ℓ : Loc nD τ sig) → Buf (Elt F) ℓ) (ρ : Dev nD → PrngReg)

/-! ## Buffers written before the first region and read again after later regions keep their contents -/

theorem W4_keeps (c : Dev nD) (b : Ref sig .tc) (hb : ∀ w, Pipeline.arrRef spec0 w ≠ b) :
    W4 m ρ c (Proc.devRef .tc b) = W3 m ρ c (Proc.devRef .tc b) := W4_of_ne m ρ c b hb

theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)

set_option maxHeartbeats 1000000 in
theorem W9_v3 (c : Dev nD) : W9 m ρ c (Proc.devRef .tc main_v3) = W3 m ρ c (Proc.devRef .tc main_v3) := by
  rw [W9_of_ne m ρ c main_v3 (by decide), W8_of_ne m ρ c main_v3 (by decide)]
  show StableHlo.after hostOps2 (W6 m ρ c) (Proc.devRef .tc main_v3) = _
  after_results_simp
  rw [W6_of_ne m ρ c main_v3 (by decide)]
  show StableHlo.after hostOps1 (W4 m ρ c) (Proc.devRef .tc main_v3) = _
  after_results_simp
  exact W4_v3 m ρ c

set_option maxHeartbeats 1000000 in
theorem W9_v6 (c : Dev nD) : W9 m ρ c (Proc.devRef .tc main_v6) = W3 m ρ c (Proc.devRef .tc main_v6) := by
  rw [W9_of_ne m ρ c main_v6 (by decide), W8_of_ne m ρ c main_v6 (by decide)]
  show StableHlo.after hostOps2 (W6 m ρ c) (Proc.devRef .tc main_v6) = _
  after_results_simp
  rw [W6_of_ne m ρ c main_v6 (by decide)]
  show StableHlo.after hostOps1 (W4 m ρ c) (Proc.devRef .tc main_v6) = _
  after_results_simp
  exact W4_v6 m ρ c

set_option maxHeartbeats 1000000 in
theorem W5_v29 (c : Dev nD) : W5 m ρ c (Proc.devRef .tc main_v29) = W4 m ρ c (Proc.devRef .tc main_v29) := by
  show StableHlo.after hostOps1 (W4 m ρ c) (Proc.devRef .tc main_v29) = _
  after_results_simp

set_option maxHeartbeats 1000000 in
theorem W7_v29 (c : Dev nD) : W7 m ρ c (Proc.devRef .tc main_v29) = W6 m ρ c (Proc.devRef .tc main_v29) := by
  show StableHlo.after hostOps2 (W6 m ρ c) (Proc.devRef .tc main_v29) = _
  after_results_simp

theorem W9_v29 (c : Dev nD) : W9 m ρ c (Proc.devRef .tc main_v29) = W3 m ρ c (Proc.devRef .tc main_v29) :=
  (W9_of_ne m ρ c main_v29 (by decide)).trans <| (W8_of_ne m ρ c main_v29 (by decide)).trans <| (W7_v29 m ρ c).trans <|
    (W6_of_ne m ρ c main_v29 (by decide)).trans <| (W5_v29 m ρ c).trans (W4_v29 m ρ c)

/-- The mean head's product is not touched by the log-deviation head's region. -/
theorem W9_v51 (c : Dev nD) : W9 m ρ c (Proc.devRef .tc main_v51) = W8 m ρ c (Proc.devRef .tc main_v51) := W9_of_ne m ρ c main_v51 (by decide)

/-- The hidden array and the second head's weight, as cast before the mean head's region, are what the log-deviation
    head's region finds. -/
theorem W8_v48 (c : Dev nD) : W8 m ρ c (Proc.devRef .tc main_v48) = W7 m ρ c (Proc.devRef .tc main_v48) :=
  (W8_arr m ρ c 0).trans (((dat2 (V7 m ρ) c).arrAt_in 0 rfl _).trans (A_eq2 (V7 m ρ) c 0))
theorem W8_v50 (c : Dev nD) : W8 m ρ c (Proc.devRef .tc main_v50) = W7 m ρ c (Proc.devRef .tc main_v50) := W8_of_ne m ρ c main_v50 (by decide)

/-! ## The arguments as later stretches find them -/

set_option maxHeartbeats 1000000 in
/-- Nothing before the first region writes an argument. -/
theorem W3_arg (c : Dev nD) (b : Ref sig .tc)
    (h : StableHlo.after hostOps0_2 (W2 m ρ c) (Proc.devRef .tc b) = m ((c : Thread nD τ).loc b)) :
    W3 m ρ c (Proc.devRef .tc b) = m ((c : Thread nD τ).loc b) := h

set_option maxHeartbeats 1000000 in
theorem W4_arg3 (c : Dev nD) : W4 m ρ c (Proc.devRef .tc main_arg3) = m ((c : Thread nD τ).loc main_arg3) := by
  rw [W4_of_ne m ρ c main_arg3 (by decide)]
  show StableHlo.after hostOps0_2 (W2 m ρ c) (Proc.devRef .tc main_arg3) = _
  after_results_simp

set_option maxHeartbeats 1000000 in
theorem W4_arg (c : Dev nD) (b : Ref sig .tc) (h0 : ∀ w, Pipeline.arrRef spec0 w ≠ b)
    (h : StableHlo.after hostOps0_2 (W2 m ρ c) (Proc.devRef .tc b) = m ((c : Thread nD τ).loc b)) :
    W4 m ρ c (Proc.devRef .tc b) = m ((c : Thread nD τ).loc b) := by
  rw [W4_of_ne m ρ c b h0]; exact h

set_option maxHeartbeats 1000000 in
theorem W4_arg4 (c : Dev nD) : W4 m ρ c (Proc.devRef .tc main_arg4) = m ((c : Thread nD τ).loc main_arg4) := by
  refine W4_arg m ρ c main_arg4 (by decide) ?_
  after_results_simp
set_option maxHeartbeats 1000000 in
theorem W4_arg5 (c : Dev nD) : W4 m ρ c (Proc.devRef .tc main_arg5) = m ((c : Thread nD τ).loc main_arg5) := by
  refine W4_arg m ρ c main_arg5 (by decide) ?_
  after_results_simp
set_option maxHeartbeats 1000000 in
theorem W4_arg6 (c : Dev nD) : W4 m ρ c (Proc.devRef .tc main_arg6) = m ((c : Thread nD τ).loc main_arg6) := by
  refine W4_arg m ρ c main_arg6 (by decide) ?_
  after_results_simp
set_option maxHeartbeats 1000000 in
theorem W4_arg7 (c : Dev nD) : W4 m ρ c (Proc.devRef .tc main_arg7) = m ((c : Thread nD τ).loc main_arg7) := by
  refine W4_arg m ρ c main_arg7 (by decide) ?_
  after_results_simp
set_option maxHeartbeats 1000000 in
theorem W4_arg8 (c : Dev nD) : W4 m ρ c (Proc.devRef .tc main_arg8) = m ((c : Thread nD τ).loc main_arg8) := by
  refine W4_arg m ρ c main_arg8 (by decide) ?_
  after_results_simp

set_option maxHeartbeats 1000000 in
/-- From the first region's exit to the second region's exit nothing writes an argument other than through a window. -/
theorem W6_of_W4 (c : Dev nD) (b : Ref sig .tc) (h1 : ∀ w, Pipeline.arrRef spec1 w ≠ b)
    (h : StableHlo.after hostOps1 (W4 m ρ c) (Proc.devRef .tc b) = W4 m ρ c (Proc.devRef .tc b)) :
    W6 m ρ c (Proc.devRef .tc b) = W4 m ρ c (Proc.devRef .tc b) := by
  rw [W6_of_ne m ρ c b h1]; exact h

set_option maxHeartbeats 1000000 in
theorem W6_arg4 (c : Dev nD) : W6 m ρ c (Proc.devRef .tc main_arg4) = m ((c : Thread nD τ).loc main_arg4) := by
  rw [W6_of_W4 m ρ c main_arg4 (by decide) (by after_results_simp), W4_arg4]
set_option maxHeartbeats 1000000 in
theorem W6_arg6 (c : Dev nD) : W6 m ρ c (Proc.devRef .tc main_arg6) = m ((c : Thread nD τ).loc main_arg6) := by
  rw [W6_of_W4 m ρ c main_arg6 (by decide) (by after_results_simp), W4_arg6]
set_option maxHeartbeats 1000000 in
theorem W6_arg5 (c : Dev nD) : W6 m ρ c (Proc.devRef .tc main_arg5) = m ((c : Thread nD τ).loc main_arg5) := by
  rw [W6_of_W4 m ρ c main_arg5 (by decide) (by after_results_simp), W4_arg5]
set_option maxHeartbeats 1000000 in
theorem W6_arg7 (c : Dev nD) : W6 m ρ c (Proc.devRef .tc main_arg7) = m ((c : Thread nD τ).loc main_arg7) := by
  rw [W6_of_W4 m ρ c main_arg7 (by decide) (by after_results_simp), W4_arg7]
set_option maxHeartbeats 1000000 in
theorem W6_arg8 (c : Dev nD) : W6 m ρ c (Proc.devRef .tc main_arg8) = m ((c : Thread nD τ).loc main_arg8) := by
  rw [W6_of_W4 m ρ c main_arg8 (by decide) (by after_results_simp), W4_arg8]

set_option maxHeartbeats 1000000 in
/-- From the second region's exit to the fourth region's exit likewise. -/
theorem W9_of_W6 (c : Dev nD) (b : Ref sig .tc) (h3 : ∀ w, Pipeline.arrRef spec3 w ≠ b) (h2 : ∀ w, Pipeline.arrRef spec2 w ≠ b)
    (h : StableHlo.after hostOps2 (W6 m ρ c) (Proc.devRef .tc b) = W6 m ρ c (Proc.devRef .tc b)) :
    W9 m ρ c (Proc.devRef .tc b) = W6 m ρ c (Proc.devRef .tc b) := by
  rw [W9_of_ne m ρ c b h3, W8_of_ne m ρ c b h2]; exact h

set_option maxHeartbeats 1000000 in
theorem W9_arg5 (c : Dev nD) : W9 m ρ c (Proc.devRef .tc main_arg5) = m ((c : Thread nD τ).loc main_arg5) := by
  rw [W9_of_W6 m ρ c main_arg5 (by decide) (by decide) (by after_results_simp), W6_arg5]
set_option maxHeartbeats 1000000 in
theorem W9_arg7 (c : Dev nD) : W9 m ρ c (Proc.devRef .tc main_arg7) = m ((c : Thread nD τ).loc main_arg7) := by
  rw [W9_of_W6 m ρ c main_arg7 (by decide) (by decide) (by after_results_simp), W6_arg7]
set_option maxHeartbeats 1000000 in
theorem W9_arg8 (c : Dev nD) : W9 m ρ c (Proc.devRef .tc main_arg8) = m ((c : Thread nD τ).loc main_arg8) := by
  rw [W9_of_W6 m ρ c main_arg8 (by decide) (by decide) (by after_results_simp), W6_arg8]

end Generic

end Cert.KernelIdeal.Val

end
-- ==== Proof.HostCast.lean ====
/-
  On the extended reals a change of float format is the identity, so the arrays the matrix-product regions read are
  the arguments (or the hidden array) themselves; and a bias vector reshaped to a row holds entry q at (0, q).
-/
import proofs.«141266_j44220983280296_1_alg».proof.Proof.HostKeep
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- The first region's left operand is the node-feature argument. -/
theorem V3_v30 (c : Dev nD) : V3 m ρ c main_v30 = (m ((c : Thread nD τ).loc main_arg0) : S100000x256.Idx → EReal) := by
  show StableHlo.after hostOps0_2 (W2 m ρ c) (Proc.devRef .tc main_v30) = _
  after_results_simp
  rfl

set_option maxHeartbeats 1000000 in
/-- The first region's right operand is the first weight. -/
theorem V3_v31 (c : Dev nD) : V3 m ρ c main_v31 = (m ((c : Thread nD τ).loc main_arg2) : S256x128.Idx → EReal) := by
  show StableHlo.after hostOps0_2 (W2 m ρ c) (Proc.devRef .tc main_v31) = _
  after_results_simp
  rfl

set_option maxHeartbeats 1000000 in
/-- The two heads' left operand is the hidden array the second region left. -/
theorem V7_v48 (c : Dev nD) : V7 m ρ c main_v48 = (W6 m ρ c (Proc.devRef .tc main_v47) : S100000x128.Idx → EReal) := by
  show StableHlo.after hostOps2 (W6 m ρ c) (Proc.devRef .tc main_v48) = _
  after_results_simp
  rfl

set_option maxHeartbeats 1000000 in
theorem V7_v49 (c : Dev nD) : V7 m ρ c main_v49 = (m ((c : Thread nD τ).loc main_arg4) : S128x64.Idx → EReal) := by
  show StableHlo.after hostOps2 (W6 m ρ c) (Proc.devRef .tc main_v49) = _
  after_results_simp
  rw [W6_arg4]
  rfl

set_option maxHeartbeats 1000000 in
theorem V7_v50 (c : Dev nD) : V7 m ρ c main_v50 = (m ((c : Thread nD τ).loc main_arg6) : S128x64.Idx → EReal) := by
  show StableHlo.after hostOps2 (W6 m ρ c) (Proc.devRef .tc main_v50) = _
  after_results_simp
  rw [W6_arg6]
  rfl

/-- The log-deviation head's region finds the same hidden array and its own weight. -/
theorem V8_v48 (c : Dev nD) : V8 m ρ c main_v48 = (W6 m ρ c (Proc.devRef .tc main_v47) : S100000x128.Idx → EReal) :=
  (W8_v48 m ρ c).trans (V7_v48 m ρ c)
theorem V8_v50 (c : Dev nD) : V8 m ρ c main_v50 = (m ((c : Thread nD τ).loc main_arg6) : S128x64.Idx → EReal) :=
  (W8_v50 m ρ c).trans (V7_v50 m ρ c)

set_option maxHeartbeats 1000000 in
/-- The first bias as a row: entry q at (0, q). -/
theorem V5_v46_apply (c : Dev nD) (q : Fin 128) :
    V5 m ρ c main_v46 (ix2 (0 : Fin 1) q) = m ((c : Thread nD τ).loc main_arg3) (ix1 q) := by
  show StableHlo.after hostOps1 (W4 m ρ c) (Proc.devRef .tc main_v46) (ix2 (0 : Fin 1) q) = _
  after_results_simp
  rw [W4_arg3]
  have key : ∀ y : FVec Ideal S128 .f32, shapeCast S1x128 y shapeCasts_S128_S1x128 (ix2 (0 : Fin 1) q) = y (ix1 q) := fun y =>
    shapeCast_apply y shapeCasts_S128_S1x128 (ix2 (0 : Fin 1) q) (ix1 q)
      (by rewrite [Shape.rowMajor_val_two, Shape.rowMajor_val_one]; show q.val = 0 * 128 + q.val; omega)
  exact key _

set_option maxHeartbeats 1000000 in
theorem V10_v79_apply (c : Dev nD) (q : Fin 64) :
    V10 m ρ c main_v79 (ix2 (0 : Fin 1) q) = m ((c : Thread nD τ).loc main_arg5) (ix1 q) := by
  show StableHlo.after hostOps4 (W9 m ρ c) (Proc.devRef .tc main_v79) (ix2 (0 : Fin 1) q) = _
  after_results_simp
  rw [W9_arg5]
  have key : ∀ y : FVec Ideal S64 .f32, shapeCast S1x64 y shapeCasts_S64_S1x64 (ix2 (0 : Fin 1) q) = y (ix1 q) := fun y =>
    shapeCast_apply y shapeCasts_S64_S1x64 (ix2 (0 : Fin 1) q) (ix1 q)
      (by rewrite [Shape.rowMajor_val_two, Shape.rowMajor_val_one]; show q.val = 0 * 64 + q.val; omega)
  exact key _

set_option maxHeartbeats 1000000 in
theorem V10_v80_apply (c : Dev nD) (q : Fin 64) :
    V10 m ρ c main_v80 (ix2 (0 : Fin 1) q) = m ((c : Thread nD τ).loc main_arg7) (ix1 q) := by
  show StableHlo.after hostOps4 (W9 m ρ c) (Proc.devRef .tc main_v80) (ix2 (0 : Fin 1) q) = _
  after_results_simp
  rw [W9_arg7]
  have key : ∀ y : FVec Ideal S64 .f32, shapeCast S1x64 y shapeCasts_S64_S1x64 (ix2 (0 : Fin 1) q) = y (ix1 q) := fun y =>
    shapeCast_apply y shapeCasts_S64_S1x64 (ix2 (0 : Fin 1) q) (ix1 q)
      (by rewrite [Shape.rowMajor_val_two, Shape.rowMajor_val_one]; show q.val = 0 * 64 + q.val; omega)
  exact key _

set_option maxHeartbeats 1000000 in
/-- The noise argument is what the last region finds. -/
theorem V10_arg8 (c : Dev nD) : V10 m ρ c main_arg8 = (m ((c : Thread nD τ).loc main_arg8) : S100000x64.Idx → EReal) := by
  show StableHlo.after hostOps4 (W9 m ρ c) (Proc.devRef .tc main_arg8) = _
  after_results_simp
  exact W9_arg8 m ρ c

end Cert.KernelIdeal.Val

end
-- ==== Proof.HostRef.lean ====
/-
  The host operations the kernel's program shares with the reference, read against the reference's own stages: the
  edge sources and targets with the self-loops appended, the symmetric normalisation, and the three
  gather-scale-scatter aggregations. Each stretch of the kernel's @main is read from the contents the stretch starts
  at; where those are the reference's stage of the same arguments, so is what the stretch computes, operation for
  operation. Nothing here opens a gather or a scatter. Stated for any float family.
-/
import proofs.«141266_j44220983280296_1_alg».proof.Proof.HostKeep
import proofs.«141266_j44220983280296_1_alg».proof.Proof.RefRead

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg)

/-! ## Before the first region: sources, targets, the normalisation -/

set_option maxHeartbeats 2000000 in
/-- Edge sources, self-loops appended. -/
theorem W1_v3 (c : Dev nD) : W1 m ρ c (Proc.devRef .tc main_v3) = val_main_v3 (F := F) (m ((c : Thread nD τ).loc main_arg1)) := by
  show StableHlo.after hostOps0 (W0 m ρ c) (Proc.devRef .tc main_v3) = _
  after_results
  rfl

set_option maxHeartbeats 2000000 in
/-- Edge targets, self-loops appended. -/
theorem W1_v6 (c : Dev nD) : W1 m ρ c (Proc.devRef .tc main_v6) = val_main_v6 (F := F) (m ((c : Thread nD τ).loc main_arg1)) := by
  show StableHlo.after hostOps0 (W0 m ρ c) (Proc.devRef .tc main_v6) = _
  after_results
  rfl

set_option maxHeartbeats 2000000 in
/-- Which nodes have positive degree. -/
theorem W1_v12 (c : Dev nD) : W1 m ρ c (Proc.devRef .tc main_v12) = val_main_v12 (F := F) (m ((c : Thread nD τ).loc main_arg1)) := by
  show StableHlo.after hostOps0 (W0 m ρ c) (Proc.devRef .tc main_v12) = _
  after_results
  rfl

set_option maxHeartbeats 2000000 in
/-- The degrees' inverse square roots. -/
theorem W1_v13 (c : Dev nD) : W1 m ρ c (Proc.devRef .tc main_v13) = val_main_v13 (F := F) (m ((c : Thread nD τ).loc main_arg1)) := by
  show StableHlo.after hostOps0 (W0 m ρ c) (Proc.devRef .tc main_v13) = _
  after_results
  rfl

set_option maxHeartbeats 2000000 in
theorem W1_cst_2 (c : Dev nD) : W1 m ρ c (Proc.devRef .tc main_cst_2) = val_main_cst_2 (F := F) := by
  show StableHlo.after hostOps0 (W0 m ρ c) (Proc.devRef .tc main_cst_2) = _
  after_results
  rfl

/-! ## The call that keeps the inverse square root where the degree is positive -/

set_option maxHeartbeats 2000000 in
theorem W2_v14 (c : Dev nD) : W2 m ρ c (Proc.devRef .tc main_v14) = val_main_v14 (F := F) (m ((c : Thread nD τ).loc main_arg1)) := by
  have h12 := W1_v12 m ρ c
  have h13 := W1_v13 m ρ c
  have hc := W1_cst_2 m ρ c
  show StableHlo.after hostOps0_1 (W1 m ρ c) (Proc.devRef .tc main_v14) = _
  generalize W1 m ρ c = w1 at h12 h13 hc ⊢
  after_results_simp
  (try simp only [TRef.ofBuf, TRef.toBuf, cast_eq])
  rw [h12, h13, hc]
  rfl

set_option maxHeartbeats 2000000 in
theorem W2_v3 (c : Dev nD) : W2 m ρ c (Proc.devRef .tc main_v3) = val_main_v3 (F := F) (m ((c : Thread nD τ).loc main_arg1)) := by
  have h := W1_v3 m ρ c
  show StableHlo.after hostOps0_1 (W1 m ρ c) (Proc.devRef .tc main_v3) = _
  generalize W1 m ρ c = w1 at h ⊢
  after_results_simp
  exact h

set_option maxHeartbeats 2000000 in
theorem W2_v6 (c : Dev nD) : W2 m ρ c (Proc.devRef .tc main_v6) = val_main_v6 (F := F) (m ((c : Thread nD τ).loc main_arg1)) := by
  have h := W1_v6 m ρ c
  show StableHlo.after hostOps0_1 (W1 m ρ c) (Proc.devRef .tc main_v6) = _
  generalize W1 m ρ c = w1 at h ⊢
  after_results_simp
  exact h

/-! ## The stretch that ends at the first region -/

set_option maxHeartbeats 2000000 in
theorem W3_v3 (c : Dev nD) : W3 m ρ c (Proc.devRef .tc main_v3) = val_main_v3 (F := F) (m ((c : Thread nD τ).loc main_arg1)) := by
  have h := W2_v3 m ρ c
  show StableHlo.after hostOps0_2 (W2 m ρ c) (Proc.devRef .tc main_v3) = _
  generalize W2 m ρ c = w2 at h ⊢
  after_results_simp
  exact h

set_option maxHeartbeats 2000000 in
theorem W3_v6 (c : Dev nD) : W3 m ρ c (Proc.devRef .tc main_v6) = val_main_v6 (F := F) (m ((c : Thread nD τ).loc main_arg1)) := by
  have h := W2_v6 m ρ c
  show StableHlo.after hostOps0_2 (W2 m ρ c) (Proc.devRef .tc main_v6) = _
  generalize W2 m ρ c = w2 at h ⊢
  after_results_simp
  exact h

set_option maxHeartbeats 2000000 in
/-- The per-edge normalisation: the kept inverse square roots gathered at the source and at the target, multiplied. -/
theorem W3_v29 (c : Dev nD) : W3 m ρ c (Proc.devRef .tc main_v29) = val_main_v29 (F := F) (m ((c : Thread nD τ).loc main_arg1)) := by
  have h3 := W2_v3 m ρ c
  have h6 := W2_v6 m ρ c
  have h14 := W2_v14 m ρ c
  show StableHlo.after hostOps0_2 (W2 m ρ c) (Proc.devRef .tc main_v29) = _
  generalize W2 m ρ c = w2 at h3 h6 h14 ⊢
  after_results_simp
  rw [h3, h6, h14]
  rfl

/-! ## The three aggregations: gather the rows at the sources, scale by the normalisation, add them up at the targets -/

set_option maxHeartbeats 2000000 in
/-- After the first region: if its result is the reference's first product, the aggregated array is the reference's. -/
theorem W5_v45 (c : Dev nD)
    (h32 : W4 m ρ c (Proc.devRef .tc main_v32) = val_main_v30 (F := F) (m ((c : Thread nD τ).loc main_arg0)) (m ((c : Thread nD τ).loc main_arg2))) :
    W5 m ρ c (Proc.devRef .tc main_v45) = val_main_v43 (F := F) (m ((c : Thread nD τ).loc main_arg0)) (m ((c : Thread nD τ).loc main_arg1)) (m ((c : Thread nD τ).loc main_arg2)) := by
  show StableHlo.after hostOps1 (W4 m ρ c) (Proc.devRef .tc main_v45) = _
  after_results_simp
  rw [h32, W4_v3, W4_v6, W4_v29, W3_v3, W3_v6, W3_v29]
  rfl

set_option maxHeartbeats 2000000 in
/-- The mean head's aggregation. -/
theorem W10_v65 (c : Dev nD)
    (h51 : W9 m ρ c (Proc.devRef .tc main_v51) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W10 m ρ c (Proc.devRef .tc main_v65) = val_main_v61 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W9 m ρ c) (Proc.devRef .tc main_v65) = _
  after_results_simp
  rw [h51, W9_v3, W9_v6, W9_v29, W3_v3, W3_v6, W3_v29]
  rfl

set_option maxHeartbeats 2000000 in
/-- The log-deviation head's aggregation. -/
theorem W10_v78 (c : Dev nD)
    (h52 : W9 m ρ c (Proc.devRef .tc main_v52) = val_main_v65 (F := F) (m ((c : Thread nD τ).loc main_arg0)) (m ((c : Thread nD τ).loc main_arg1)) (m ((c : Thread nD τ).loc main_arg2)) (m ((c : Thread nD τ).loc main_arg3)) (m ((c : Thread nD τ).loc main_arg6))) :
    W10 m ρ c (Proc.devRef .tc main_v78) = val_main_v78 (F := F) (m ((c : Thread nD τ).loc main_arg0)) (m ((c : Thread nD τ).loc main_arg1)) (m ((c : Thread nD τ).loc main_arg2)) (m ((c : Thread nD τ).loc main_arg3)) (m ((c : Thread nD τ).loc main_arg6)) := by
  show StableHlo.after hostOps4 (W9 m ρ c) (Proc.devRef .tc main_v78) = _
  after_results_simp
  rw [h52, W9_v3, W9_v6, W9_v29, W3_v3, W3_v6, W3_v29]
  rfl

end Cert.KernelIdeal.Val

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Reg0.lean ====
/-
  The first matrix-product region: over a grid of 50 points, point t multiplies rows 2000·t … 2000·t + 1999 of the
  left array by the whole right array into a zero accumulator and writes the product back as the same rows of the
  result. So the result array ends, at (p, q), at the sum over k of left(p, k) · right(k, q).
-/
import proofs.«141266_j44220983280296_1_alg».proof.Proof.Gen.KernelIdeal.Frame
import Idealize.ShloMosaic.Lib.ValueIdx
import Idealize.ShloMosaic.Lib.Pipeline.Value
import Idealize.ShloMosaic.PureOps.Ideal.Laws
import proofs.«141266_j44220983280296_1_alg».proof.Proof.LibPlainDot
set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem reg0_hz : (![0, 0] : Fin 2 → Nat) = fun _ => 0 := funext fun a => by fin_cases a <;> rfl

/-- The body's arithmetic at an entry (a, q) of the block: the 2000 × 256 left block times the 256 × 128 right
    block into the zero accumulator is the sum over k of x(a, k) · w(k, q). -/
theorem reg0_pay_apply (x : S2000x256.Idx → EReal) (w : S256x128.Idx → EReal) (a : Fin 2000) (q : Fin 128) :
    k0_pay1 (F := Ideal) x w (ix2 a q) = ∑ k : Fin 256, x (ix2 a k) * w (ix2 k q) := by
  show FloatOps.matmul (F := Ideal) (φ₁ := .bf16) (φ₂ := .bf16) dot_S2000x256_S256x128_S2000x128_1_0_0_1_n_n none
      (shapeCast S2000x256 x shapeCasts_S2000x256_S2000x256) (shapeCast S256x128 w shapeCasts_S256x128_S256x128)
      (constant (F := Ideal) S2000x128 .f32 0x00000000#32) (ix2 a q) = _
  rw [shapeCast_self, shapeCast_self]
  exact PlainDot.matmul_zero_apply (d := dot_S2000x256_S256x128_S2000x128_1_0_0_1_n_n) ⟨rfl, rfl, rfl, rfl, rfl, rfl⟩
    (φ₁ := .bf16) (φ₂ := .bf16) none x w a q

/-- The block indices at grid point t: the left operand's and the result's blocks are block row t (column block 0);
    the right operand's block is always block (0, 0), the whole array. -/
theorem reg0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two whole arrays, entry by entry: at j = (p, q), the sum over k of l(p, k) · r(k, q). -/
abbrev reg0_G (l : S100000x256.Idx → EReal) (r : S256x128.Idx → EReal) : S100000x128.Idx → EReal :=
  fun j => ∑ k : Fin 256, l (ix2 ⟨(j 0).val, idx2_lt0 j⟩ k) * r (ix2 k ⟨(j 1).val, idx2_lt1 j⟩)

/-- The left window's block at point t is rows 2000·t … 2000·t + 1999 of the left array: its entry y is the
    array's entry i whenever i's row is 2000·t + y's row and the columns agree. -/
theorem reg0_lblk (c : Dev nD) (t : Fin cfg0.N) (y : S2000x256.Idx) (i : S100000x256.Idx)
    (h0 : (i 0).val = 2000 * t.val + (y 0).val) (h1 : (i 1).val = (y 1).val) :
    (iblk0 (F := Ideal) V c 0 t : S2000x256.Idx → EReal) y = (V c main_v30 : S100000x256.Idx → EReal) i := by
  obtain ⟨e0, e1, -⟩ := reg0_idx t
  show V c main_v30 (((cfg0.win 0).blk t).view.emb y) = V c main_v30 i
  refine congrArg _ ?_
  funext a; apply Fin.ext
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The right window's block at every point is the whole right array. -/
theorem reg0_rblk (c : Dev nD) (t : Fin cfg0.N) :
    (iblk0 (F := Ideal) V c 1 t : S256x128.Idx → EReal) = (V c main_v31 : S256x128.Idx → EReal) := by
  obtain ⟨-, -, e2, e3, -⟩ := reg0_idx t
  funext y
  show V c main_v31 (((cfg0.win 1).blk t).view.emb y) = V c main_v31 y
  refine congrArg _ ?_
  funext a; apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- Inside block t, row y of the block is row 2000·t + y of the array, and the sum over k is the same sum: if x is
    rows 2000·t … of l and w is r, the body's product at y is the whole product at the array index i over y. -/
theorem reg0_block (l : S100000x256.Idx → EReal) (r : S256x128.Idx → EReal)
    (x : S2000x256.Idx → EReal) (w : S256x128.Idx → EReal) (tv : Nat)
    (hx : ∀ (y : S2000x256.Idx) (i : S100000x256.Idx), (i 0).val = 2000 * tv + (y 0).val → (i 1).val = (y 1).val → x y = l i)
    (hw : w = r) (y : S2000x128.Idx) (i : S100000x128.Idx)
    (hi0 : (i 0).val = 2000 * tv + (y 0).val) (hi1 : (i 1).val = (y 1).val) :
    k0_pay1 (F := Ideal) x w y = reg0_G l r i := by
  obtain ⟨a, q, rfl⟩ : ∃ (a : Fin 2000) (q : Fin 128), y = ix2 a q := ⟨y 0, y 1, eq_ix2 y⟩
  rw [reg0_pay_apply, hw]
  refine Finset.sum_congr rfl fun k _ => ?_
  have hq : (⟨(i 1).val, idx2_lt1 i⟩ : Fin 128) = q := Fin.ext hi1
  rw [hq, hx (ix2 a k) (ix2 ⟨(i 0).val, idx2_lt0 i⟩ k) hi0 rfl]

/-- What point t writes back is block t of the product of the two whole arrays. -/
theorem reg0_flushed (c : Dev nD) (t : Fin cfg0.N) :
    (dat0 (F := Ideal) V c).flushed 2 t
      = ((cfg0.win 2).blk t).view.read (Elt Ideal) (reg0_G (V c main_v30) (V c main_v31)) := by
  show (cfg0.win 2).cut (grid0.coords t) ((dat0 V c).after 2 t) = _
  rw [after0_2]
  unfold out0_2
  rw [View.canon_unit_zero reg0_hz]
  simp only [View.ld_unit_zero (S := S2000x256) reg0_hz, View.ld_unit_zero (S := S256x128) reg0_hz]
  obtain ⟨-, -, -, -, e4, e5⟩ := reg0_idx t
  funext y
  refine reg0_block (V c main_v30) (V c main_v31) (iblk0 V c 0 t) (iblk0 V c 1 t) t.val
    (fun y' i' h0 h1 => reg0_lblk V c t y' i' h0 h1) (reg0_rblk V c t) y (((cfg0.win 2).blk t).view.emb y) ?_ ?_
  · show win0_2.index t (0 : Fin 2) * 2000 + 1 * (y 0).val = 2000 * t.val + (y 0).val; omega
  · show win0_2.index t (1 : Fin 2) * 128 + 1 * (y 1).val = (y 1).val; omega

/-- An index of the result array is in point t's block iff each coordinate is in the block's range on its axis. -/
theorem reg0_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row of the result is covered: row r lies in the block of point r / 2000 (50 · 2000 = 100000), and every
    point writes its block back. -/
theorem reg0_cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 50 := N_0
  have ht : (i 0).val / 2000 < cfg0.N := by rw [hN]; omega
  obtain ⟨-, -, -, -, e4, e5⟩ := reg0_idx ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [reg0_mem_blk]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; omega

/-- The result array after the region is the product of the two whole arrays as the region found them. -/
theorem reg0_final (c : Dev nD) :
    (dat0 (F := Ideal) V c).arrAt 2 cfg0.N = reg0_G (V c main_v30) (V c main_v31) :=
  (dat0 V c).arrAt_eq_of_cover 2 (reg0_G (V c main_v30) (V c main_v31)) (fun t _ => reg0_flushed V c t) reg0_cover

theorem reg0_out (c : Dev nD) (l : S100000x256.Idx → EReal) (r : S256x128.Idx → EReal)
    (hl : V c main_v30 = l) (hr : V c main_v31 = r) (p : Fin 100000) (q : Fin 128) :
    (dat0 (F := Ideal) V c).arrAt 2 cfg0.N (ix2 p q) = ∑ k : Fin 256, l (ix2 p k) * r (ix2 k q) := by
  have h := congrFun (reg0_final V c) (ix2 p q)
  rw [hl, hr] at h
  exact h

end Cert.KernelIdeal.Val

end
-- ==== Proof.Reg1.lean ====
/-
  The bias-and-rectify region: point t reads rows 2000·t … 2000·t + 1999 of the aggregated array and the one bias
  row, adds the bias along each row and takes the maximum with zero. The result array at (p, q) is
  max (x(p, q) + b(0, q), 0).
-/
import proofs.«141266_j44220983280296_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-block access, however they are spelt. -/
theorem reg1_hz : (![0, 0] : Fin 2 → Nat) = fun _ => 0 := funext fun a => by fin_cases a <;> rfl

/-- The whole result array as one function of the aggregated array x and the bias row b: at (p, q) the sum of
    x(p, q) and b(0, q), rectified. -/
abbrev reg1_G (x : S100000x128.Idx → EReal) (b : S1x128.Idx → EReal) : S100000x128.Idx → EReal :=
  fun j => max (x j + b (ix2 (0 : Fin 1) ⟨(j 1).val, idx2_lt1 j⟩)) (Ideal.ofBits .f32 0x00000000#32)

/-- The body's arithmetic at one element of a block: the block's element plus the bias row's element of the same
    column, rectified. The two shape casts are between equal shapes, and the row broadcast reads row 0. -/
theorem reg1_pay (v0 : S2000x128.Idx → EReal) (v2 : S1x128.Idx → EReal) (r : Fin 2000) (q : Fin 128) :
    k1_pay1 (F := Ideal) v0 v2 (ix2 r q)
      = max (v0 (ix2 r q) + v2 (ix2 (0 : Fin 1) q)) (Ideal.ofBits .f32 0x00000000#32) := by
  show max (shapeCast S2000x128 v0 shapeCasts_S2000x128_S2000x128 (ix2 r q)
      + broadcastTo S2000x128 (shapeCast S1x128 v2 shapeCasts_S1x128_S1x128) broadcasts_S1x128_S2000x128 (ix2 r q))
      (Ideal.ofBits .f32 0x00000000#32) = _
  rw [shapeCast_self, shapeCast_self]
  rw [broadcastTo_apply v2 broadcasts_S1x128_S2000x128 (ix2 r q) (ix2 (0 : Fin 1) q) (fun a => by
    match a with
    | ⟨0, _⟩ => rfl
    | ⟨1, _⟩ =>
      show q.val = if (128 : Nat) = 1 then 0 else q.val
      rw [if_neg (by decide)])]

/-- The printed index maps, decided once over the 50 grid points: the row-blocked windows (the aggregated array's
    and the result's) sit at block (t, 0), the bias window at block (0, 0). -/
theorem reg1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One element of a written-back block, with the places the body's loads come from named: if the row block's
    element (r, q) is x at e0, the bias block's element (0, q) is b at e1, and e0, e1 are where the result's own
    place e2 says (the same place; row 0 of the same column), the body's value there is reg1_G x b at e2. -/
theorem reg1_blk_elt (x : S100000x128.Idx → EReal) (b : S1x128.Idx → EReal)
    (X0 : S2000x128.Idx → EReal) (X1 : S1x128.Idx → EReal) (e0 e2 : S100000x128.Idx) (e1 : S1x128.Idx)
    (r : Fin 2000) (q : Fin 128) (hX0 : X0 (ix2 r q) = x e0) (hX1 : X1 (ix2 (0 : Fin 1) q) = b e1)
    (h0 : e0 = e2) (h1 : e1 = ix2 (0 : Fin 1) ⟨(e2 1).val, idx2_lt1 e2⟩) :
    k1_pay1 (F := Ideal) X0 X1 (ix2 r q) = reg1_G x b e2 := by
  subst h0 h1
  rw [reg1_pay, hX0, hX1]

/-- What point t writes back is block t of reg1_G of the two input arrays as the region finds them. -/
theorem reg1_flushed (c : Dev nD) (x : S100000x128.Idx → EReal) (b : S1x128.Idx → EReal)
    (hx : V c main_v45 = x) (hb : V c main_v46 = b) (t : Fin cfg1.N) :
    (dat1 (F := Ideal) V c).flushed 2 t = ((cfg1.win 2).blk t).view.read (Elt Ideal) (reg1_G x b) := by
  show (cfg1.win 2).cut (grid1.coords t) ((dat1 (F := Ideal) V c).after 2 t) = _
  rw [after1_2]
  unfold out1_2
  rw [View.canon_unit_zero reg1_hz]
  simp only [View.ld_unit_zero (S := S2000x128) reg1_hz, View.ld_unit_zero (S := S1x128) reg1_hz]
  obtain ⟨e0, e1, e2, e3, e4, e5⟩ := reg1_idx t
  funext j
  obtain ⟨r, q, rfl⟩ : ∃ (r : Fin 2000) (q : Fin 128), j = ix2 r q := ⟨j 0, j 1, eq_ix2 j⟩
  have h0 : (((cfg1.win 0).blk t).view.emb (ix2 r q) : S100000x128.Idx)
      = ((cfg1.win 2).blk t).view.emb (ix2 r q) := by
    funext a; apply Fin.ext
    match a with
    | ⟨0, _⟩ => show win1_0.index t (0 : Fin 2) * 2000 + 1 * r.val = win1_2.index t (0 : Fin 2) * 2000 + 1 * r.val; omega
    | ⟨1, _⟩ => show win1_0.index t (1 : Fin 2) * 128 + 1 * q.val = win1_2.index t (1 : Fin 2) * 128 + 1 * q.val; omega
  have h1 : (((cfg1.win 1).blk t).view.emb (ix2 (0 : Fin 1) q) : S1x128.Idx)
      = ix2 (0 : Fin 1) ⟨((((cfg1.win 2).blk t).view.emb (ix2 r q) : S100000x128.Idx) 1).val, idx2_lt1 _⟩ := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact reg1_blk_elt x b (iblk1 V c 0 t) (iblk1 V c 1 t) (((cfg1.win 0).blk t).view.emb (ix2 r q))
    (((cfg1.win 2).blk t).view.emb (ix2 r q)) (((cfg1.win 1).blk t).view.emb (ix2 (0 : Fin 1) q)) r q
    (congrFun hx _) (congrFun hb _) h0 h1

/-- An index of the result array is in point t's block iff each coordinate is in the block's range on its axis. -/
theorem reg1_mem_blk (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v47).slice (win1_2.rect t)).set ↔ _
  rw [View.set_slice_whole, Rect.mem_set_unit]
  exact Iff.rfl

/-- Every row is written back: row p lies in the block of point p / 2000, and 50 · 2000 = 100000. -/
theorem reg1_cover (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  obtain ⟨t, ht⟩ : ∃ t : Fin cfg1.N, t.val = (i 0).val / 2000 :=
    ⟨⟨(i 0).val / 2000, Nat.lt_of_lt_of_eq (by omega : (i 0).val / 2000 < 50) N_1.symm⟩, rfl⟩
  obtain ⟨-, -, -, -, e4, e5⟩ := reg1_idx t
  refine ⟨t, flush1_2 t, ?_⟩
  rw [reg1_mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- The result array after the region is reg1_G of the two input arrays. -/
theorem reg1_final (c : Dev nD) (x : S100000x128.Idx → EReal) (b : S1x128.Idx → EReal)
    (hx : V c main_v45 = x) (hb : V c main_v46 = b) :
    (dat1 (F := Ideal) V c).arrAt 2 cfg1.N = reg1_G x b :=
  (dat1 (F := Ideal) V c).arrAt_eq_of_cover 2 (reg1_G x b)
    (fun t _ => reg1_flushed V c x b hx hb t) reg1_cover

theorem reg1_out (c : Dev nD) (x : S100000x128.Idx → EReal) (b : S1x128.Idx → EReal)
    (hx : V c main_v45 = x) (hb : V c main_v46 = b) (p : Fin 100000) (q : Fin 128) :
    (dat1 (F := Ideal) V c).arrAt 2 cfg1.N (ix2 p q) = max (x (ix2 p q) + b (ix2 (0 : Fin 1) q)) (Ideal.ofBits .f32 0x00000000#32) := by
  rw [reg1_final V c x b hx hb]

end Cert.KernelIdeal.Val

end
-- ==== Proof.Reg2.lean ====
/-
  The second matrix-product region (the mean head): rows 2000·t … 2000·t + 1999 of the hidden array times the
  whole 128 × 64 weight, written back as the same rows. The result array at (p, q) is the sum over k.
-/
import proofs.«141266_j44220983280296_1_alg».proof.Proof.Gen.KernelIdeal.Frame
import Idealize.ShloMosaic.Lib.ValueIdx
import Idealize.ShloMosaic.Lib.Pipeline.Value
import Idealize.ShloMosaic.PureOps.Ideal.Laws
import proofs.«141266_j44220983280296_1_alg».proof.Proof.LibPlainDot
set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem reg2_hz : (![0, 0] : Fin 2 → Nat) = fun _ => 0 := funext fun a => by fin_cases a <;> rfl

/-- The body's arithmetic at an entry (a, q) of the block: the 2000 × 128 left block times the 128 × 64 right
    block into the zero accumulator is the sum over k of x(a, k) · w(k, q). -/
theorem reg2_pay_apply (x : S2000x128.Idx → EReal) (w : S128x64.Idx → EReal) (a : Fin 2000) (q : Fin 64) :
    k2_pay1 (F := Ideal) x w (ix2 a q) = ∑ k : Fin 128, x (ix2 a k) * w (ix2 k q) := by
  show FloatOps.matmul (F := Ideal) (φ₁ := .bf16) (φ₂ := .bf16) dot_S2000x128_S128x64_S2000x64_1_0_0_1_n_n none
      (shapeCast S2000x128 x shapeCasts_S2000x128_S2000x128) (shapeCast S128x64 w shapeCasts_S128x64_S128x64)
      (constant (F := Ideal) S2000x64 .f32 0x00000000#32) (ix2 a q) = _
  rw [shapeCast_self, shapeCast_self]
  exact PlainDot.matmul_zero_apply (d := dot_S2000x128_S128x64_S2000x64_1_0_0_1_n_n) ⟨rfl, rfl, rfl, rfl, rfl, rfl⟩
    (φ₁ := .bf16) (φ₂ := .bf16) none x w a q

/-- The block indices at grid point t: the left operand's and the result's blocks are block row t (column block 0);
    the right operand's block is always block (0, 0), the whole array. -/
theorem reg2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the two whole arrays, entry by entry: at j = (p, q), the sum over k of l(p, k) · r(k, q). -/
abbrev reg2_G (l : S100000x128.Idx → EReal) (r : S128x64.Idx → EReal) : S100000x64.Idx → EReal :=
  fun j => ∑ k : Fin 128, l (ix2 ⟨(j 0).val, idx2_lt0 j⟩ k) * r (ix2 k ⟨(j 1).val, idx2_lt1 j⟩)

/-- The left window's block at point t is rows 2000·t … 2000·t + 1999 of the left array: its entry y is the
    array's entry i whenever i's row is 2000·t + y's row and the columns agree. -/
theorem reg2_lblk (c : Dev nD) (t : Fin cfg2.N) (y : S2000x128.Idx) (i : S100000x128.Idx)
    (h0 : (i 0).val = 2000 * t.val + (y 0).val) (h1 : (i 1).val = (y 1).val) :
    (iblk2 (F := Ideal) V c 0 t : S2000x128.Idx → EReal) y = (V c main_v48 : S100000x128.Idx → EReal) i := by
  obtain ⟨e0, e1, -⟩ := reg2_idx t
  show V c main_v48 (((cfg2.win 0).blk t).view.emb y) = V c main_v48 i
  refine congrArg _ ?_
  funext a; apply Fin.ext
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The right window's block at every point is the whole right array. -/
theorem reg2_rblk (c : Dev nD) (t : Fin cfg2.N) :
    (iblk2 (F := Ideal) V c 1 t : S128x64.Idx → EReal) = (V c main_v49 : S128x64.Idx → EReal) := by
  obtain ⟨-, -, e2, e3, -⟩ := reg2_idx t
  funext y
  show V c main_v49 (((cfg2.win 1).blk t).view.emb y) = V c main_v49 y
  refine congrArg _ ?_
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- Inside block t, row y of the block is row 2000·t + y of the array, and the sum over k is the same sum: if x is
    rows 2000·t … of l and w is r, the body's product at y is the whole product at the array index i over y. -/
theorem reg2_block (l : S100000x128.Idx → EReal) (r : S128x64.Idx → EReal)
    (x : S2000x128.Idx → EReal) (w : S128x64.Idx → EReal) (tv : Nat)
    (hx : ∀ (y : S2000x128.Idx) (i : S100000x128.Idx), (i 0).val = 2000 * tv + (y 0).val → (i 1).val = (y 1).val → x y = l i)
    (hw : w = r) (y : S2000x64.Idx) (i : S100000x64.Idx)
    (hi0 : (i 0).val = 2000 * tv + (y 0).val) (hi1 : (i 1).val = (y 1).val) :
    k2_pay1 (F := Ideal) x w y = reg2_G l r i := by
  obtain ⟨a, q, rfl⟩ : ∃ (a : Fin 2000) (q : Fin 64), y = ix2 a q := ⟨y 0, y 1, eq_ix2 y⟩
  rw [reg2_pay_apply, hw]
  refine Finset.sum_congr rfl fun k _ => ?_
  have hq : (⟨(i 1).val, idx2_lt1 i⟩ : Fin 64) = q := Fin.ext hi1
  rw [hq, hx (ix2 a k) (ix2 ⟨(i 0).val, idx2_lt0 i⟩ k) hi0 rfl]

/-- What point t writes back is block t of the product of the two whole arrays. -/
theorem reg2_flushed (c : Dev nD) (t : Fin cfg2.N) :
    (dat2 (F := Ideal) V c).flushed 2 t
      = ((cfg2.win 2).blk t).view.read (Elt Ideal) (reg2_G (V c main_v48) (V c main_v49)) := by
  show (cfg2.win 2).cut (grid2.coords t) ((dat2 V c).after 2 t) = _
  rw [after2_2]
  unfold out2_2
  rw [View.canon_unit_zero reg2_hz]
  simp only [View.ld_unit_zero (S := S2000x128) reg2_hz, View.ld_unit_zero (S := S128x64) reg2_hz]
  obtain ⟨-, -, -, -, e4, e5⟩ := reg2_idx t
  funext y
  refine reg2_block (V c main_v48) (V c main_v49) (iblk2 V c 0 t) (iblk2 V c 1 t) t.val
    (fun y' i' h0 h1 => reg2_lblk V c t y' i' h0 h1) (reg2_rblk V c t) y (((cfg2.win 2).blk t).view.emb y) ?_ ?_
  · show win2_2.index t (0 : Fin 2) * 2000 + 1 * (y 0).val = 2000 * t.val + (y 0).val; omega
  · show win2_2.index t (1 : Fin 2) * 64 + 1 * (y 1).val = (y 1).val; omega

/-- An index of the result array is in point t's block iff each coordinate is in the block's range on its axis. -/
theorem reg2_mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v51).slice (win2_2.rect t)).set ↔ _
  rw [View.set_slice_whole, Rect.mem_set_unit]
  exact Iff.rfl

/-- Every row of the result is covered: row r lies in the block of point r / 2000 (50 · 2000 = 100000), and every
    point writes its block back. -/
theorem reg2_cover (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 50 := N_2
  have ht : (i 0).val / 2000 < cfg2.N := by rw [hN]; omega
  obtain ⟨-, -, -, -, e4, e5⟩ := reg2_idx ⟨(i 0).val / 2000, ht⟩
  have e4' : win2_2.index ⟨(i 0).val / 2000, ht⟩ (0 : Fin 2) = (i 0).val / 2000 := e4
  refine ⟨⟨(i 0).val / 2000, ht⟩, flush2_2 _, ?_⟩
  rw [reg2_mem_blk]
  intro a
  match a with
  | ⟨0, _⟩ => show win2_2.index ⟨(i 0).val / 2000, ht⟩ (0 : Fin 2) * 2000 ≤ (i 0).val ∧ (i 0).val < win2_2.index ⟨(i 0).val / 2000, ht⟩ (0 : Fin 2) * 2000 + 2000; omega
  | ⟨1, _⟩ => show win2_2.index ⟨(i 0).val / 2000, ht⟩ (1 : Fin 2) * 64 ≤ (i 1).val ∧ (i 1).val < win2_2.index ⟨(i 0).val / 2000, ht⟩ (1 : Fin 2) * 64 + 64; omega

/-- The result array after the region is the product of the two whole arrays as the region found them. -/
theorem reg2_final (c : Dev nD) :
    (dat2 (F := Ideal) V c).arrAt 2 cfg2.N = reg2_G (V c main_v48) (V c main_v49) :=
  (dat2 V c).arrAt_eq_of_cover 2 (reg2_G (V c main_v48) (V c main_v49)) (fun t _ => reg2_flushed V c t) reg2_cover

theorem reg2_out (c : Dev nD) (l : S100000x128.Idx → EReal) (r : S128x64.Idx → EReal)
    (hl : V c main_v48 = l) (hr : V c main_v49 = r) (p : Fin 100000) (q : Fin 64) :
    (dat2 (F := Ideal) V c).arrAt 2 cfg2.N (ix2 p q) = ∑ k : Fin 128, l (ix2 p k) * r (ix2 k q) := by
  have h := congrFun (reg2_final V c) (ix2 p q)
  rw [hl, hr] at h
  exact h

end Cert.KernelIdeal.Val

end
-- ==== Proof.Reg3.lean ====
/-
  The third matrix-product region (the log-deviation head): as the second, with the other 128 × 64 weight.
-/
import proofs.«141266_j44220983280296_1_alg».proof.Proof.Gen.KernelIdeal.Frame
import Idealize.ShloMosaic.Lib.ValueIdx
import Idealize.ShloMosaic.Lib.Pipeline.Value
import Idealize.ShloMosaic.PureOps.Ideal.Laws
import proofs.«141266_j44220983280296_1_alg».proof.Proof.LibPlainDot
set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-block access, as a constant function. -/
theorem reg3_hz : (![0, 0] : Fin 2 → Nat) = fun _ => 0 := funext fun a => by fin_cases a <;> rfl

/-- The body's arithmetic at an entry (a, q) of the block: the 2000 × 128 left block times the 128 × 64 right
    block into the zero accumulator is the sum over k of x(a, k) · w(k, q). -/
theorem reg3_pay_apply (x : S2000x128.Idx → EReal) (w : S128x64.Idx → EReal) (a : Fin 2000) (q : Fin 64) :
    k3_pay1 (F := Ideal) x w (ix2 a q) = ∑ k : Fin 128, x (ix2 a k) * w (ix2 k q) := by
  show FloatOps.matmul (F := Ideal) (φ₁ := .bf16) (φ₂ := .bf16) dot_S2000x128_S128x64_S2000x64_1_0_0_1_n_n none
      (shapeCast S2000x128 x shapeCasts_S2000x128_S2000x128) (shapeCast S128x64 w shapeCasts_S128x64_S128x64)
      (constant (F := Ideal) S2000x64 .f32 0x00000000#32) (ix2 a q) = _
  rw [shapeCast_self, shapeCast_self]
  exact PlainDot.matmul_zero_apply (d := dot_S2000x128_S128x64_S2000x64_1_0_0_1_n_n) ⟨rfl, rfl, rfl, rfl, rfl, rfl⟩
    (φ₁ := .bf16) (φ₂ := .bf16) none x w a q

/-- The block indices at grid point t: the left operand's and the result's blocks are block row t (column block 0);
    the right operand's block is always block (0, 0), the whole array. -/
theorem reg3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The product of the two whole arrays, entry by entry: at j = (p, q), the sum over k of l(p, k) · r(k, q). -/
abbrev reg3_G (l : S100000x128.Idx → EReal) (r : S128x64.Idx → EReal) : S100000x64.Idx → EReal :=
  fun j => ∑ k : Fin 128, l (ix2 ⟨(j 0).val, idx2_lt0 j⟩ k) * r (ix2 k ⟨(j 1).val, idx2_lt1 j⟩)

/-- The left window's block at point t is rows 2000·t … 2000·t + 1999 of the left array: its entry y is the
    array's entry i whenever i's row is 2000·t + y's row and the columns agree. -/
theorem reg3_lblk (c : Dev nD) (t : Fin cfg3.N) (y : S2000x128.Idx) (i : S100000x128.Idx)
    (h0 : (i 0).val = 2000 * t.val + (y 0).val) (h1 : (i 1).val = (y 1).val) :
    (iblk3 (F := Ideal) V c 0 t : S2000x128.Idx → EReal) y = (V c main_v48 : S100000x128.Idx → EReal) i := by
  obtain ⟨e0, e1, -⟩ := reg3_idx t
  show V c main_v48 (((cfg3.win 0).blk t).view.emb y) = V c main_v48 i
  refine congrArg _ ?_
  funext a; apply Fin.ext
  match a with
  | ⟨0, _⟩ => show win3_0.index t (0 : Fin 2) * 2000 + 1 * (y 0).val = (i 0).val; omega
  | ⟨1, _⟩ => show win3_0.index t (1 : Fin 2) * 128 + 1 * (y 1).val = (i 1).val; omega

/-- The right window's block at every point is the whole right array. -/
theorem reg3_rblk (c : Dev nD) (t : Fin cfg3.N) :
    (iblk3 (F := Ideal) V c 1 t : S128x64.Idx → EReal) = (V c main_v50 : S128x64.Idx → EReal) := by
  obtain ⟨-, -, e2, e3, -⟩ := reg3_idx t
  funext y
  show V c main_v50 (((cfg3.win 1).blk t).view.emb y) = V c main_v50 y
  refine congrArg _ ?_
  funext a; apply Fin.ext
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- Inside block t, row y of the block is row 2000·t + y of the array, and the sum over k is the same sum: if x is
    rows 2000·t … of l and w is r, the body's product at y is the whole product at the array index i over y. -/
theorem reg3_block (l : S100000x128.Idx → EReal) (r : S128x64.Idx → EReal)
    (x : S2000x128.Idx → EReal) (w : S128x64.Idx → EReal) (tv : Nat)
    (hx : ∀ (y : S2000x128.Idx) (i : S100000x128.Idx), (i 0).val = 2000 * tv + (y 0).val → (i 1).val = (y 1).val → x y = l i)
    (hw : w = r) (y : S2000x64.Idx) (i : S100000x64.Idx)
    (hi0 : (i 0).val = 2000 * tv + (y 0).val) (hi1 : (i 1).val = (y 1).val) :
    k3_pay1 (F := Ideal) x w y = reg3_G l r i := by
  obtain ⟨a, q, rfl⟩ : ∃ (a : Fin 2000) (q : Fin 64), y = ix2 a q := ⟨y 0, y 1, eq_ix2 y⟩
  rw [reg3_pay_apply, hw]
  refine Finset.sum_congr rfl fun k _ => ?_
  have hq : (⟨(i 1).val, idx2_lt1 i⟩ : Fin 64) = q := Fin.ext hi1
  rw [hq, hx (ix2 a k) (ix2 ⟨(i 0).val, idx2_lt0 i⟩ k) hi0 rfl]

/-- What point t writes back is block t of the product of the two whole arrays. -/
theorem reg3_flushed (c : Dev nD) (t : Fin cfg3.N) :
    (dat3 (F := Ideal) V c).flushed 2 t
      = ((cfg3.win 2).blk t).view.read (Elt Ideal) (reg3_G (V c main_v48) (V c main_v50)) := by
  show (cfg3.win 2).cut (grid3.coords t) ((dat3 V c).after 2 t) = _
  rw [after3_2]
  unfold out3_2
  rw [View.canon_unit_zero reg3_hz]
  simp only [View.ld_unit_zero (S := S2000x128) reg3_hz, View.ld_unit_zero (S := S128x64) reg3_hz]
  obtain ⟨-, -, -, -, e4, e5⟩ := reg3_idx t
  funext y
  refine reg3_block (V c main_v48) (V c main_v50) (iblk3 V c 0 t) (iblk3 V c 1 t) t.val
    (fun y' i' h0 h1 => reg3_lblk V c t y' i' h0 h1) (reg3_rblk V c t) y (((cfg3.win 2).blk t).view.emb y) ?_ ?_
  · show win3_2.index t (0 : Fin 2) * 2000 + 1 * (y 0).val = 2000 * t.val + (y 0).val; omega
  · show win3_2.index t (1 : Fin 2) * 64 + 1 * (y 1).val = (y 1).val; omega

/-- An index of the result array is in point t's block iff each coordinate is in the block's range on its axis. -/
theorem reg3_mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v52).slice (win3_2.rect t)).set ↔ _
  rw [View.set_slice_whole, Rect.mem_set_unit]
  exact Iff.rfl

/-- Every row of the result is covered: row r lies in the block of point r / 2000 (50 · 2000 = 100000), and every
    point writes its block back. -/
theorem reg3_cover (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 50 := N_3
  have ht : (i 0).val / 2000 < cfg3.N := by rw [hN]; omega
  obtain ⟨-, -, -, -, e4, e5⟩ := reg3_idx ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [reg3_mem_blk]
  intro a
  match a with
  | ⟨0, _⟩ => show win3_2.index ⟨(i 0).val / 2000, ht⟩ (0 : Fin 2) * 2000 ≤ (i 0).val ∧ (i 0).val < win3_2.index ⟨(i 0).val / 2000, ht⟩ (0 : Fin 2) * 2000 + 2000; omega
  | ⟨1, _⟩ => show win3_2.index ⟨(i 0).val / 2000, ht⟩ (1 : Fin 2) * 64 ≤ (i 1).val ∧ (i 1).val < win3_2.index ⟨(i 0).val / 2000, ht⟩ (1 : Fin 2) * 64 + 64; omega

/-- The result array after the region is the product of the two whole arrays as the region found them. -/
theorem reg3_final (c : Dev nD) :
    (dat3 (F := Ideal) V c).arrAt 2 cfg3.N = reg3_G (V c main_v48) (V c main_v50) :=
  (dat3 V c).arrAt_eq_of_cover 2 (reg3_G (V c main_v48) (V c main_v50)) (fun t _ => reg3_flushed V c t) reg3_cover

theorem reg3_out (c : Dev nD) (l : S100000x128.Idx → EReal) (r : S128x64.Idx → EReal)
    (hl : V c main_v48 = l) (hr : V c main_v50 = r) (p : Fin 100000) (q : Fin 64) :
    (dat3 (F := Ideal) V c).arrAt 2 cfg3.N (ix2 p q) = ∑ k : Fin 128, l (ix2 p k) * r (ix2 k q) := by
  have h := congrFun (reg3_final V c) (ix2 p q)
  rw [hl, hr] at h
  exact h

end Cert.KernelIdeal.Val

end
-- ==== Proof.Reg4.lean ====
/-
  The last region, three results from one pass over the rows: mean = a(p, q) + bm(0, q); log-deviation =
  s(p, q) + bs(0, q); sample = mean + noise(p, q) · exp(log-deviation).
-/
import proofs.«141266_j44220983280296_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The body's arithmetic at one entry of a block -/

/-- The offsets of an access to a whole block are zero on both axes. -/
theorem reg4_hz : (![0, 0] : Fin 2 → Nat) = fun _ => 0 := funext fun a => by fin_cases a <;> rfl

/-- One row of 64 broadcast over 2000 rows reads, at (r, q), the row at q. -/
theorem reg4_row_apply (v : FVec Ideal S1x64 .f32) (h : S1x64.Broadcasts S2000x64) (r : Fin 2000) (q : Fin 64) :
    broadcastTo S2000x64 v h (ix2 r q) = v (ix2 (0 : Fin 1) q) := by
  refine broadcastTo_apply v h (ix2 r q) (ix2 (0 : Fin 1) q) fun ax => ?_
  match ax with
  | ⟨0, _⟩ => rfl
  | ⟨1, _⟩ => rfl

/-- The mean's payload at (r, q): the block's entry plus the bias row's entry at q. -/
theorem reg4_pay1_apply (v0 : FVec Ideal S2000x64 .f32) (v2 : FVec Ideal S1x64 .f32) (r : Fin 2000) (q : Fin 64) :
    k4_pay1 (F := Ideal) v0 v2 (ix2 r q) = v0 (ix2 r q) + v2 (ix2 (0 : Fin 1) q) := by
  unfold k4_pay1
  show addf (F := Ideal) (shapeCast S2000x64 v0 shapeCasts_S2000x64_S2000x64) (broadcastTo S2000x64 (shapeCast S1x64 v2 shapeCasts_S1x64_S1x64) broadcasts_S1x64_S2000x64) (ix2 r q) = _
  rw [addf_apply, shapeCast_self, shapeCast_self, reg4_row_apply]

/-- The log-deviation's payload at (r, q): the same sum of its own block and bias row. -/
theorem reg4_pay2_apply (v6 : FVec Ideal S2000x64 .f32) (v8 : FVec Ideal S1x64 .f32) (r : Fin 2000) (q : Fin 64) :
    k4_pay2 (F := Ideal) v6 v8 (ix2 r q) = v6 (ix2 r q) + v8 (ix2 (0 : Fin 1) q) := by
  unfold k4_pay2
  show addf (F := Ideal) (shapeCast S2000x64 v6 shapeCasts_S2000x64_S2000x64) (broadcastTo S2000x64 (shapeCast S1x64 v8 shapeCasts_S1x64_S1x64) broadcasts_S1x64_S2000x64) (ix2 r q) = _
  rw [addf_apply, shapeCast_self, shapeCast_self, reg4_row_apply]

/-- The sample's payload at (r, q): mean plus noise times the exponential of the log-deviation. -/
theorem reg4_pay3_apply (v0 v6 v12 : FVec Ideal S2000x64 .f32) (v2 v8 : FVec Ideal S1x64 .f32) (r : Fin 2000) (q : Fin 64) :
    k4_pay3 (F := Ideal) v0 v2 v6 v8 v12 (ix2 r q)
      = (v0 (ix2 r q) + v2 (ix2 (0 : Fin 1) q)) + v12 (ix2 r q) * Ideal.exp (v6 (ix2 r q) + v8 (ix2 (0 : Fin 1) q)) := by
  unfold k4_pay3
  show addf (F := Ideal) (k4_pay1 v0 v2) (mulf v12 (Idealize.ShloMosaic.exp (k4_pay2 v6 v8))) (ix2 r q) = _
  rw [addf_apply, mulf_apply, reg4_pay1_apply]
  show _ + _ * FloatOps.exp (k4_pay2 (F := Ideal) v6 v8 (ix2 r q)) = _
  rw [Ideal.exp_def, reg4_pay2_apply]

/-! ## Where the blocks sit in their arrays -/

/-- The printed index maps over the grid: a row-blocked window's block index is (t, 0), a bias window's (0, 0). -/
theorem reg4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Point t's block of the row-blocked input window 0, read at (r, q), is the array at row 2000·t + r, column q. -/
theorem reg4_rows0 (c : Dev nD) (x0 : S100000x64.Idx → EReal) (h0 : V c main_v65 = x0) (t : Fin cfg4.N)
    (r : Fin 2000) (q : Fin 64) (k : S100000x64.Idx) (hk0 : (k 0).val = t.val * 2000 + r.val) (hk1 : (k 1).val = q.val) :
    (iblk4 V c 0 t : FVec Ideal S2000x64 .f32) (ix2 r q) = x0 k := by
  obtain ⟨e00, e01, e10, e11, e20, e21, e30, e31, e40, e41, e50, e51, e60, e61, e70, e71⟩ := reg4_idx t
  show V c main_v65 (((cfg4.win 0).blk t).view.emb (ix2 r q)) = x0 k
  rw [h0]
  refine congrArg x0 ?_
  funext a; apply Fin.ext
  match a with
  | ⟨0, _⟩ => show win4_0.index t (0 : Fin 2) * 2000 + 1 * r.val = (k 0).val; omega
  | ⟨1, _⟩ => show win4_0.index t (1 : Fin 2) * 64 + 1 * q.val = (k 1).val; omega

/-- Point t's block of the row-blocked input window 1, read at (r, q), is the array at row 2000·t + r, column q. -/
theorem reg4_rows1 (c : Dev nD) (x1 : S100000x64.Idx → EReal) (h1 : V c main_v78 = x1) (t : Fin cfg4.N)
    (r : Fin 2000) (q : Fin 64) (k : S100000x64.Idx) (hk0 : (k 0).val = t.val * 2000 + r.val) (hk1 : (k 1).val = q.val) :
    (iblk4 V c 1 t : FVec Ideal S2000x64 .f32) (ix2 r q) = x1 k := by
  obtain ⟨e00, e01, e10, e11, e20, e21, e30, e31, e40, e41, e50, e51, e60, e61, e70, e71⟩ := reg4_idx t
  show V c main_v78 (((cfg4.win 1).blk t).view.emb (ix2 r q)) = x1 k
  rw [h1]
  refine congrArg x1 ?_
  funext a; apply Fin.ext
  match a with
  | ⟨0, _⟩ => show win4_1.index t (0 : Fin 2) * 2000 + 1 * r.val = (k 0).val; omega
  | ⟨1, _⟩ => show win4_1.index t (1 : Fin 2) * 64 + 1 * q.val = (k 1).val; omega

/-- Point t's block of the row-blocked input window 4, read at (r, q), is the array at row 2000·t + r, column q. -/
theorem reg4_rows4 (c : Dev nD) (x4 : S100000x64.Idx → EReal) (h4 : V c main_arg8 = x4) (t : Fin cfg4.N)
    (r : Fin 2000) (q : Fin 64) (k : S100000x64.Idx) (hk0 : (k 0).val = t.val * 2000 + r.val) (hk1 : (k 1).val = q.val) :
    (iblk4 V c 4 t : FVec Ideal S2000x64 .f32) (ix2 r q) = x4 k := by
  obtain ⟨e00, e01, e10, e11, e20, e21, e30, e31, e40, e41, e50, e51, e60, e61, e70, e71⟩ := reg4_idx t
  show V c main_arg8 (((cfg4.win 4).blk t).view.emb (ix2 r q)) = x4 k
  rw [h4]
  refine congrArg x4 ?_
  funext a; apply Fin.ext
  match a with
  | ⟨0, _⟩ => show win4_4.index t (0 : Fin 2) * 2000 + 1 * r.val = (k 0).val; omega
  | ⟨1, _⟩ => show win4_4.index t (1 : Fin 2) * 64 + 1 * q.val = (k 1).val; omega

/-- The bias window 2's block is the whole 1×64 row at every point. -/
theorem reg4_bias2 (c : Dev nD) (b2 : S1x64.Idx → EReal) (h2 : V c main_v79 = b2) (t : Fin cfg4.N) (q : Fin 64) :
    (iblk4 V c 2 t : FVec Ideal S1x64 .f32) (ix2 (0 : Fin 1) q) = b2 (ix2 (0 : Fin 1) q) := by
  obtain ⟨e00, e01, e10, e11, e20, e21, e30, e31, e40, e41, e50, e51, e60, e61, e70, e71⟩ := reg4_idx t
  show V c main_v79 (((cfg4.win 2).blk t).view.emb (ix2 (0 : Fin 1) q)) = b2 _
  rw [h2]
  refine congrArg b2 ?_
  funext a; apply Fin.ext
  match a with
  | ⟨0, _⟩ => show win4_2.index t (0 : Fin 2) * 1 + 1 * 0 = 0; omega
  | ⟨1, _⟩ => show win4_2.index t (1 : Fin 2) * 64 + 1 * q.val = q.val; omega

/-- The bias window 3's block is the whole 1×64 row at every point. -/
theorem reg4_bias3 (c : Dev nD) (b3 : S1x64.Idx → EReal) (h3 : V c main_v80 = b3) (t : Fin cfg4.N) (q : Fin 64) :
    (iblk4 V c 3 t : FVec Ideal S1x64 .f32) (ix2 (0 : Fin 1) q) = b3 (ix2 (0 : Fin 1) q) := by
  obtain ⟨e00, e01, e10, e11, e20, e21, e30, e31, e40, e41, e50, e51, e60, e61, e70, e71⟩ := reg4_idx t
  show V c main_v80 (((cfg4.win 3).blk t).view.emb (ix2 (0 : Fin 1) q)) = b3 _
  rw [h3]
  refine congrArg b3 ?_
  funext a; apply Fin.ext
  match a with
  | ⟨0, _⟩ => show win4_3.index t (0 : Fin 2) * 1 + 1 * 0 = 0; omega
  | ⟨1, _⟩ => show win4_3.index t (1 : Fin 2) * 64 + 1 * q.val = q.val; omega

/-- Entry (r, q) of point t's block of output window 5 sits in the array at row 2000·t + r, column q. -/
theorem reg4_at5 (t : Fin cfg4.N) (r : Fin 2000) (q : Fin 64) :
    ((((cfg4.win 5).blk t).view.emb (ix2 r q)) 0).val = t.val * 2000 + r.val
    ∧ ((((cfg4.win 5).blk t).view.emb (ix2 r q)) 1).val = q.val := by
  obtain ⟨e00, e01, e10, e11, e20, e21, e30, e31, e40, e41, e50, e51, e60, e61, e70, e71⟩ := reg4_idx t
  constructor
  · show win4_5.index t (0 : Fin 2) * 2000 + 1 * r.val = _; omega
  · show win4_5.index t (1 : Fin 2) * 64 + 1 * q.val = _; omega

/-- An index of the array lies in point t's block of output window 5 iff each coordinate lies in the block's range. -/
theorem reg4_mem_blk5 (t : Fin cfg4.N) (i : S100000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v81_0).slice (win4_5.rect t)).set ↔ _
  rw [View.set_slice_whole, Rect.mem_set_unit]
  exact Iff.rfl

/-- Output window 5: row r is written back by the point r / 2000 (50 · 2000 = 100000), so every index is covered. -/
theorem reg4_cover5 (i : S100000x64.Idx) :
    ∃ t : Fin cfg4.N, (cfg4.win 5).flush t = true ∧ i ∈ ((cfg4.win 5).blk t).view.set := by
  have hN : grid4.N = 50 := N_4
  have hi0 : (i 0).val < 100000 := idx2_lt0 i
  have hi1 : (i 1).val < 64 := idx2_lt1 i
  obtain ⟨t, ht⟩ : ∃ t : Fin cfg4.N, t.val = (i 0).val / 2000 :=
    ⟨⟨(i 0).val / 2000, by show (i 0).val / 2000 < grid4.N; rw [hN]; omega⟩, rfl⟩
  obtain ⟨e00, e01, e10, e11, e20, e21, e30, e31, e40, e41, e50, e51, e60, e61, e70, e71⟩ := reg4_idx t
  refine ⟨t, flush4_5 t, ?_⟩
  rw [reg4_mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 64 ≤ (i 1).val ∧ (i 1).val < win4_5.index t (1 : Fin 2) * 64 + 64; omega

/-- Entry (r, q) of point t's block of output window 6 sits in the array at row 2000·t + r, column q. -/
theorem reg4_at6 (t : Fin cfg4.N) (r : Fin 2000) (q : Fin 64) :
    ((((cfg4.win 6).blk t).view.emb (ix2 r q)) 0).val = t.val * 2000 + r.val
    ∧ ((((cfg4.win 6).blk t).view.emb (ix2 r q)) 1).val = q.val := by
  obtain ⟨e00, e01, e10, e11, e20, e21, e30, e31, e40, e41, e50, e51, e60, e61, e70, e71⟩ := reg4_idx t
  constructor
  · show win4_6.index t (0 : Fin 2) * 2000 + 1 * r.val = _; omega
  · show win4_6.index t (1 : Fin 2) * 64 + 1 * q.val = _; omega

/-- An index of the array lies in point t's block of output window 6 iff each coordinate lies in the block's range. -/
theorem reg4_mem_blk6 (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v81_1).slice (win4_6.rect t)).set ↔ _
  rw [View.set_slice_whole, Rect.mem_set_unit]
  exact Iff.rfl

/-- Output window 6: row r is written back by the point r / 2000 (50 · 2000 = 100000), so every index is covered. -/
theorem reg4_cover6 (i : S100000x64.Idx) :
    ∃ t : Fin cfg4.N, (cfg4.win 6).flush t = true ∧ i ∈ ((cfg4.win 6).blk t).view.set := by
  have hN : grid4.N = 50 := N_4
  have hi0 : (i 0).val < 100000 := idx2_lt0 i
  have hi1 : (i 1).val < 64 := idx2_lt1 i
  obtain ⟨t, ht⟩ : ∃ t : Fin cfg4.N, t.val = (i 0).val / 2000 :=
    ⟨⟨(i 0).val / 2000, by show (i 0).val / 2000 < grid4.N; rw [hN]; omega⟩, rfl⟩
  obtain ⟨e00, e01, e10, e11, e20, e21, e30, e31, e40, e41, e50, e51, e60, e61, e70, e71⟩ := reg4_idx t
  refine ⟨t, flush4_6 t, ?_⟩
  rw [reg4_mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 64 ≤ (i 1).val ∧ (i 1).val < win4_6.index t (1 : Fin 2) * 64 + 64; omega

/-- Entry (r, q) of point t's block of output window 7 sits in the array at row 2000·t + r, column q. -/
theorem reg4_at7 (t : Fin cfg4.N) (r : Fin 2000) (q : Fin 64) :
    ((((cfg4.win 7).blk t).view.emb (ix2 r q)) 0).val = t.val * 2000 + r.val
    ∧ ((((cfg4.win 7).blk t).view.emb (ix2 r q)) 1).val = q.val := by
  obtain ⟨e00, e01, e10, e11, e20, e21, e30, e31, e40, e41, e50, e51, e60, e61, e70, e71⟩ := reg4_idx t
  constructor
  · show win4_7.index t (0 : Fin 2) * 2000 + 1 * r.val = _; omega
  · show win4_7.index t (1 : Fin 2) * 64 + 1 * q.val = _; omega

/-- An index of the array lies in point t's block of output window 7 iff each coordinate lies in the block's range. -/
theorem reg4_mem_blk7 (t : Fin cfg4.N) (i : S100000x64.Idx) :
    i ∈ ((cfg4.win 7).blk t).view.set ↔ ∀ a : Fin 2, win4_7.index t a * S2000x64.size a ≤ (i a).val ∧ (i a).val < win4_7.index t a * S2000x64.size a + S2000x64.size a := by
  show i ∈ ((View.whole main_v81_2).slice (win4_7.rect t)).set ↔ _
  rw [View.set_slice_whole, Rect.mem_set_unit]
  exact Iff.rfl

/-- Output window 7: row r is written back by the point r / 2000 (50 · 2000 = 100000), so every index is covered. -/
theorem reg4_cover7 (i : S100000x64.Idx) :
    ∃ t : Fin cfg4.N, (cfg4.win 7).flush t = true ∧ i ∈ ((cfg4.win 7).blk t).view.set := by
  have hN : grid4.N = 50 := N_4
  have hi0 : (i 0).val < 100000 := idx2_lt0 i
  have hi1 : (i 1).val < 64 := idx2_lt1 i
  obtain ⟨t, ht⟩ : ∃ t : Fin cfg4.N, t.val = (i 0).val / 2000 :=
    ⟨⟨(i 0).val / 2000, by show (i 0).val / 2000 < grid4.N; rw [hN]; omega⟩, rfl⟩
  obtain ⟨e00, e01, e10, e11, e20, e21, e30, e31, e40, e41, e50, e51, e60, e61, e70, e71⟩ := reg4_idx t
  refine ⟨t, flush4_7 t, ?_⟩
  rw [reg4_mem_blk7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 64 ≤ (i 1).val ∧ (i 1).val < win4_7.index t (1 : Fin 2) * 64 + 64; omega

/-! ## The three arrays as functions of the inputs -/

/-- An array plus a bias row: entry (p, q) plus the row's entry at q. Both the mean and the log-deviation are of this form. -/
abbrev reg4_plusRow (x : S100000x64.Idx → EReal) (b : S1x64.Idx → EReal) : S100000x64.Idx → EReal :=
  fun j => x j + b (ix2 (0 : Fin 1) ⟨(j 1).val, idx2_lt1 j⟩)

/-- That function at an index whose column is q. -/
theorem reg4_plusRow_at (x : S100000x64.Idx → EReal) (b : S1x64.Idx → EReal) (k : S100000x64.Idx) (q : Fin 64)
    (hk1 : (k 1).val = q.val) : reg4_plusRow x b k = x k + b (ix2 (0 : Fin 1) q) := by
  have e : (⟨(k 1).val, idx2_lt1 k⟩ : Fin 64) = q := Fin.ext hk1
  show x k + b (ix2 (0 : Fin 1) ⟨(k 1).val, idx2_lt1 k⟩) = _
  rw [e]

/-- The sample: mean plus noise times the exponential of the log-deviation, entry by entry. -/
abbrev reg4_sample (x0 x1 x4 : S100000x64.Idx → EReal) (b2 b3 : S1x64.Idx → EReal) : S100000x64.Idx → EReal :=
  fun j => reg4_plusRow x0 b2 j + x4 j * Ideal.exp (reg4_plusRow x1 b3 j)

/-- That function at an index whose column is q. -/
theorem reg4_sample_at (x0 x1 x4 : S100000x64.Idx → EReal) (b2 b3 : S1x64.Idx → EReal) (k : S100000x64.Idx) (q : Fin 64)
    (hk1 : (k 1).val = q.val) :
    reg4_sample x0 x1 x4 b2 b3 k
      = (x0 k + b2 (ix2 (0 : Fin 1) q)) + x4 k * Ideal.exp (x1 k + b3 (ix2 (0 : Fin 1) q)) := by
  show reg4_plusRow x0 b2 k + x4 k * Ideal.exp (reg4_plusRow x1 b3 k) = _
  rw [reg4_plusRow_at x0 b2 k q hk1, reg4_plusRow_at x1 b3 k q hk1]

/-! ## The mean -/

/-- What point t writes back to the mean's array is block t of its function. -/
theorem reg4_flushed6 (c : Dev nD) (x0 : S100000x64.Idx → EReal) (b2 : S1x64.Idx → EReal)
    (h0 : V c main_v65 = x0) (h2 : V c main_v79 = b2) (t : Fin cfg4.N) :
    (dat4 (F := Ideal) V c).flushed 6 t = ((cfg4.win 6).blk t).view.read (Elt Ideal) (reg4_plusRow x0 b2) := by
  show (cfg4.win 6).cut (grid4.coords t) ((dat4 V c).after 6 t) = _
  rw [after4_6]
  unfold out4_6
  rw [View.canon_unit_zero reg4_hz]
  simp only [View.ld_unit_zero (S := S2000x64) reg4_hz, View.ld_unit_zero (S := S1x64) reg4_hz]
  funext y
  obtain ⟨r, q, rfl⟩ : ∃ (r : Fin 2000) (q : Fin 64), y = ix2 r q := ⟨y 0, y 1, eq_ix2 y⟩
  obtain ⟨k0, k1⟩ := reg4_at6 t r q
  show k4_pay1 (F := Ideal) (iblk4 V c 0 t) (iblk4 V c 2 t) (ix2 r q) = reg4_plusRow x0 b2 (((cfg4.win 6).blk t).view.emb (ix2 r q))
  refine (reg4_pay1_apply (iblk4 V c 0 t) (iblk4 V c 2 t) r q).trans ?_
  exact (congrArg₂ (fun a b : EReal => a + b) (reg4_rows0 V c x0 h0 t r q _ k0 k1) (reg4_bias2 V c b2 h2 t q)).trans
    (reg4_plusRow_at x0 b2 _ q k1).symm

/-- The mean's array after the region: its function, everywhere. -/
theorem reg4_final6 (c : Dev nD) (x0 : S100000x64.Idx → EReal) (b2 : S1x64.Idx → EReal)
    (h0 : V c main_v65 = x0) (h2 : V c main_v79 = b2) :
    (dat4 (F := Ideal) V c).arrAt 6 cfg4.N = reg4_plusRow x0 b2 :=
  (dat4 V c).arrAt_eq_of_cover 6 (reg4_plusRow x0 b2) (fun t _ => reg4_flushed6 V c x0 b2 h0 h2 t) reg4_cover6

theorem reg4_mu (c : Dev nD) (x0 : S100000x64.Idx → EReal) (b2 : S1x64.Idx → EReal)
    (h0 : V c main_v65 = x0) (h2 : V c main_v79 = b2) (p : Fin 100000) (q : Fin 64) :
    (dat4 (F := Ideal) V c).arrAt 6 cfg4.N (ix2 p q) = x0 (ix2 p q) + b2 (ix2 (0 : Fin 1) q) := by
  exact congrFun (reg4_final6 V c x0 b2 h0 h2) (ix2 p q)

/-! ## The log-deviation -/

/-- What point t writes back to the log-deviation's array is block t of its function. -/
theorem reg4_flushed7 (c : Dev nD) (x1 : S100000x64.Idx → EReal) (b3 : S1x64.Idx → EReal)
    (h1 : V c main_v78 = x1) (h3 : V c main_v80 = b3) (t : Fin cfg4.N) :
    (dat4 (F := Ideal) V c).flushed 7 t = ((cfg4.win 7).blk t).view.read (Elt Ideal) (reg4_plusRow x1 b3) := by
  show (cfg4.win 7).cut (grid4.coords t) ((dat4 V c).after 7 t) = _
  rw [after4_7]
  unfold out4_7
  rw [View.canon_unit_zero reg4_hz]
  simp only [View.ld_unit_zero (S := S2000x64) reg4_hz, View.ld_unit_zero (S := S1x64) reg4_hz]
  funext y
  obtain ⟨r, q, rfl⟩ : ∃ (r : Fin 2000) (q : Fin 64), y = ix2 r q := ⟨y 0, y 1, eq_ix2 y⟩
  obtain ⟨k0, k1⟩ := reg4_at7 t r q
  show k4_pay2 (F := Ideal) (iblk4 V c 1 t) (iblk4 V c 3 t) (ix2 r q) = reg4_plusRow x1 b3 (((cfg4.win 7).blk t).view.emb (ix2 r q))
  refine (reg4_pay2_apply (iblk4 V c 1 t) (iblk4 V c 3 t) r q).trans ?_
  exact (congrArg₂ (fun a b : EReal => a + b) (reg4_rows1 V c x1 h1 t r q _ k0 k1) (reg4_bias3 V c b3 h3 t q)).trans
    (reg4_plusRow_at x1 b3 _ q k1).symm

/-- The log-deviation's array after the region: its function, everywhere. -/
theorem reg4_final7 (c : Dev nD) (x1 : S100000x64.Idx → EReal) (b3 : S1x64.Idx → EReal)
    (h1 : V c main_v78 = x1) (h3 : V c main_v80 = b3) :
    (dat4 (F := Ideal) V c).arrAt 7 cfg4.N = reg4_plusRow x1 b3 :=
  (dat4 V c).arrAt_eq_of_cover 7 (reg4_plusRow x1 b3) (fun t _ => reg4_flushed7 V c x1 b3 h1 h3 t) reg4_cover7

theorem reg4_ls (c : Dev nD) (x1 : S100000x64.Idx → EReal) (b3 : S1x64.Idx → EReal)
    (h1 : V c main_v78 = x1) (h3 : V c main_v80 = b3) (p : Fin 100000) (q : Fin 64) :
    (dat4 (F := Ideal) V c).arrAt 7 cfg4.N (ix2 p q) = x1 (ix2 p q) + b3 (ix2 (0 : Fin 1) q) := by
  exact congrFun (reg4_final7 V c x1 b3 h1 h3) (ix2 p q)

/-! ## The sample -/

/-- What point t writes back to the sample's array is block t of its function. -/
theorem reg4_flushed5 (c : Dev nD) (x0 x1 x4 : S100000x64.Idx → EReal) (b2 b3 : S1x64.Idx → EReal)
    (h0 : V c main_v65 = x0) (h1 : V c main_v78 = x1) (h2 : V c main_v79 = b2) (h3 : V c main_v80 = b3)
    (h4 : V c main_arg8 = x4) (t : Fin cfg4.N) :
    (dat4 (F := Ideal) V c).flushed 5 t = ((cfg4.win 5).blk t).view.read (Elt Ideal) (reg4_sample x0 x1 x4 b2 b3) := by
  show (cfg4.win 5).cut (grid4.coords t) ((dat4 V c).after 5 t) = _
  rw [after4_5]
  unfold out4_5
  rw [View.canon_unit_zero reg4_hz]
  simp only [View.ld_unit_zero (S := S2000x64) reg4_hz, View.ld_unit_zero (S := S1x64) reg4_hz]
  funext y
  obtain ⟨r, q, rfl⟩ : ∃ (r : Fin 2000) (q : Fin 64), y = ix2 r q := ⟨y 0, y 1, eq_ix2 y⟩
  obtain ⟨k0, k1⟩ := reg4_at5 t r q
  show k4_pay3 (F := Ideal) (iblk4 V c 0 t) (iblk4 V c 2 t) (iblk4 V c 1 t) (iblk4 V c 3 t) (iblk4 V c 4 t) (ix2 r q)
    = reg4_sample x0 x1 x4 b2 b3 (((cfg4.win 5).blk t).view.emb (ix2 r q))
  refine (reg4_pay3_apply (iblk4 V c 0 t) (iblk4 V c 1 t) (iblk4 V c 4 t) (iblk4 V c 2 t) (iblk4 V c 3 t) r q).trans ?_
  exact (congrArg₂ (fun a b : EReal => a + b)
      (congrArg₂ (fun a b : EReal => a + b) (reg4_rows0 V c x0 h0 t r q _ k0 k1) (reg4_bias2 V c b2 h2 t q))
      (congrArg₂ (fun a b : EReal => a * b) (reg4_rows4 V c x4 h4 t r q _ k0 k1)
        (congrArg Ideal.exp (congrArg₂ (fun a b : EReal => a + b) (reg4_rows1 V c x1 h1 t r q _ k0 k1) (reg4_bias3 V c b3 h3 t q))))).trans
    (reg4_sample_at x0 x1 x4 b2 b3 _ q k1).symm

/-- The sample's array after the region: its function, everywhere. -/
theorem reg4_final5 (c : Dev nD) (x0 x1 x4 : S100000x64.Idx → EReal) (b2 b3 : S1x64.Idx → EReal)
    (h0 : V c main_v65 = x0) (h1 : V c main_v78 = x1) (h2 : V c main_v79 = b2) (h3 : V c main_v80 = b3)
    (h4 : V c main_arg8 = x4) :
    (dat4 (F := Ideal) V c).arrAt 5 cfg4.N = reg4_sample x0 x1 x4 b2 b3 :=
  (dat4 V c).arrAt_eq_of_cover 5 (reg4_sample x0 x1 x4 b2 b3)
    (fun t _ => reg4_flushed5 V c x0 x1 x4 b2 b3 h0 h1 h2 h3 h4 t) reg4_cover5

theorem reg4_z (c : Dev nD) (x0 x1 x4 : S100000x64.Idx → EReal) (b2 b3 : S1x64.Idx → EReal)
    (h0 : V c main_v65 = x0) (h1 : V c main_v78 = x1) (h2 : V c main_v79 = b2) (h3 : V c main_v80 = b3)
    (h4 : V c main_arg8 = x4) (p : Fin 100000) (q : Fin 64) :
    (dat4 (F := Ideal) V c).arrAt 5 cfg4.N (ix2 p q)
      = (x0 (ix2 p q) + b2 (ix2 (0 : Fin 1) q)) + x4 (ix2 p q) * Ideal.exp (x1 (ix2 p q) + b3 (ix2 (0 : Fin 1) q)) := by
  exact congrFun (reg4_final5 V c x0 x1 x4 b2 b3 h0 h1 h2 h3 h4) (ix2 p q)

end Cert.KernelIdeal.Val

end
-- ==== Proof.Bridge.lean ====
/-
  The kernel's buffers at the boundaries of its regions are the reference's stages of the same arguments. Going down
  the program: the first region's product is the reference's first matrix product (both are the sum over k of
  x(p, k) · w(k, q)); so the first aggregation is the reference's; so the rectified hidden array is; so the two heads'
  products are; so their aggregations are; and the last region's three results are the reference's mean,
  log-deviation and sample.
-/
import proofs.«141266_j44220983280296_1_alg».proof.Proof.HostCast
import proofs.«141266_j44220983280296_1_alg».proof.Proof.HostRef
import proofs.«141266_j44220983280296_1_alg».proof.Proof.Reg0
import proofs.«141266_j44220983280296_1_alg».proof.Proof.Reg1
import proofs.«141266_j44220983280296_1_alg».proof.Proof.Reg2
import proofs.«141266_j44220983280296_1_alg».proof.Proof.Reg3
import proofs.«141266_j44220983280296_1_alg».proof.Proof.Reg4

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen
open Cert.ReferenceIdeal.ReadP

variable (m : (ℓ : Loc nD τ sig) → Buf (Elt Ideal) ℓ) (ρ : Dev nD → PrngReg)

/-- The first region's result is the reference's first matrix product. -/
theorem first_product (c : Dev nD) :
    W4 m ρ c (Proc.devRef .tc main_v32) = val_main_v30 (F := Ideal) (m ((c : Thread nD τ).loc main_arg0)) (m ((c : Thread nD τ).loc main_arg2)) := by
  funext j
  obtain ⟨p, q, rfl⟩ : ∃ (p : Fin 100000) (q : Fin 128), j = ix2 p q := ⟨j 0, j 1, eq_ix2 j⟩
  refine (congrFun (W4_arr m ρ c 2) (ix2 p q)).trans ?_
  refine (reg0_out (V3 m ρ) c _ _ (V3_v30 m ρ c) (V3_v31 m ρ c) p q).trans ?_
  rw [val_main_v30_apply]
  show @Eq EReal _ _
  refine Finset.sum_congr rfl fun k _ => ?_
  have e1 : lidx_main_v30 (ix2 p q) k = ix2 p k := funext fun a => Fin.ext (by match a with | ⟨0, _⟩ => rfl | ⟨1, _⟩ => rfl)
  have e2 : ridx_main_v30 (ix2 p q) k = ix2 k q := funext fun a => Fin.ext (by match a with | ⟨0, _⟩ => rfl | ⟨1, _⟩ => rfl)
  rw [e1, e2]

/-- The first aggregation is the reference's. -/
theorem first_aggregate (c : Dev nD) :
    V5 m ρ c main_v45 = val_main_v43 (F := Ideal) (m ((c : Thread nD τ).loc main_arg0)) (m ((c : Thread nD τ).loc main_arg1)) (m ((c : Thread nD τ).loc main_arg2)) :=
  W5_v45 m ρ c (first_product m ρ c)

/-- The hidden array — bias added, rectified — is the reference's. -/
theorem hidden (c : Dev nD) :
    W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  funext j
  obtain ⟨p, q, rfl⟩ : ∃ (p : Fin 100000) (q : Fin 128), j = ix2 p q := ⟨j 0, j 1, eq_ix2 j⟩
  refine (congrFun (W6_arr m ρ c 2) (ix2 p q)).trans ?_
  refine (reg1_out (V5 m ρ) c _ _ (first_aggregate m ρ c) rfl p q).trans ?_
  have ei : idx_main_v44 (idx_main_v45 (ix2 p q)) = ix1 q := funext fun a => Fin.ext (by match a with | ⟨0, _⟩ => rfl)
  rw [V5_v46_apply, val_main_v47_apply, val_main_v46_apply, val_main_v45_apply, val_main_v44_apply,
    val_main_call1_v0_apply, val_main_call1_cst_apply, ei]
  generalize val_main_v43 (F := Ideal) _ _ _ (ix2 p q) = X
  rfl

/-- The mean head's product is the reference's. -/
theorem mean_product (c : Dev nD) :
    W8 m ρ c (Proc.devRef .tc main_v51) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨p, q, rfl⟩ : ∃ (p : Fin 100000) (q : Fin 64), j = ix2 p q := ⟨j 0, j 1, eq_ix2 j⟩
  refine (congrFun (W8_arr m ρ c 2) (ix2 p q)).trans ?_
  refine (reg2_out (V7 m ρ) c _ _ ((V7_v48 m ρ c).trans (hidden m ρ c)) (V7_v49 m ρ c) p q).trans ?_
  rw [val_main_v48_apply]
  show @Eq EReal _ _
  refine Finset.sum_congr rfl fun k _ => ?_
  have e1 : lidx_main_v48 (ix2 p q) k = ix2 p k := funext fun a => Fin.ext (by match a with | ⟨0, _⟩ => rfl | ⟨1, _⟩ => rfl)
  have e2 : ridx_main_v48 (ix2 p q) k = ix2 k q := funext fun a => Fin.ext (by match a with | ⟨0, _⟩ => rfl | ⟨1, _⟩ => rfl)
  rw [e1, e2]

/-- The log-deviation head's product is the reference's. -/
theorem logdev_product (c : Dev nD) :
    W9 m ρ c (Proc.devRef .tc main_v52) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  funext j
  obtain ⟨p, q, rfl⟩ : ∃ (p : Fin 100000) (q : Fin 64), j = ix2 p q := ⟨j 0, j 1, eq_ix2 j⟩
  refine (congrFun (W9_arr m ρ c 2) (ix2 p q)).trans ?_
  refine (reg3_out (V8 m ρ) c _ _ ((V8_v48 m ρ c).trans (hidden m ρ c)) (V8_v50 m ρ c) p q).trans ?_
  rw [val_main_v65_apply]
  show @Eq EReal _ _
  refine Finset.sum_congr rfl fun k _ => ?_
  have e1 : lidx_main_v65 (ix2 p q) k = ix2 p k := funext fun a => Fin.ext (by match a with | ⟨0, _⟩ => rfl | ⟨1, _⟩ => rfl)
  have e2 : ridx_main_v65 (ix2 p q) k = ix2 k q := funext fun a => Fin.ext (by match a with | ⟨0, _⟩ => rfl | ⟨1, _⟩ => rfl)
  rw [e1, e2]

/-- The two heads' aggregations are the reference's. -/
theorem mean_aggregate (c : Dev nD) :
    V10 m ρ c main_v65 = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  W10_v65 m ρ c ((W9_v51 m ρ c).trans (mean_product m ρ c))

theorem logdev_aggregate (c : Dev nD) :
    V10 m ρ c main_v78 = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  W10_v78 m ρ c (logdev_product m ρ c)

/-- The mean: the aggregation plus its bias along each row. -/
theorem mean_result (c : Dev nD) :
    W11 m ρ c (Proc.devRef .tc main_v81_1) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  obtain ⟨p, q, rfl⟩ : ∃ (p : Fin 100000) (q : Fin 64), j = ix2 p q := ⟨j 0, j 1, eq_ix2 j⟩
  refine (congrFun (W11_arr m ρ c 6) (ix2 p q)).trans ?_
  refine (reg4_mu (V10 m ρ) c _ _ (mean_aggregate m ρ c) rfl p q).trans ?_
  have ei : idx_main_v62 (idx_main_v63 (ix2 p q)) = ix1 q := funext fun a => Fin.ext (by match a with | ⟨0, _⟩ => rfl)
  rw [V10_v79_apply, val_main_v64_apply, val_main_v63_apply, val_main_v62_apply, ei]
  generalize val_main_v61 (F := Ideal) _ _ _ _ _ (ix2 p q) = X
  rfl

/-- The log-deviation: the aggregation plus its bias along each row. -/
theorem logdev_result (c : Dev nD) :
    W11 m ρ c (Proc.devRef .tc main_v81_2) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  funext j
  obtain ⟨p, q, rfl⟩ : ∃ (p : Fin 100000) (q : Fin 64), j = ix2 p q := ⟨j 0, j 1, eq_ix2 j⟩
  refine (congrFun (W11_arr m ρ c 7) (ix2 p q)).trans ?_
  refine (reg4_ls (V10 m ρ) c _ _ (logdev_aggregate m ρ c) rfl p q).trans ?_
  have ei : idx_main_v79 (idx_main_v80 (ix2 p q)) = ix1 q := funext fun a => Fin.ext (by match a with | ⟨0, _⟩ => rfl)
  rw [V10_v80_apply, val_main_v81_apply, val_main_v80_apply, val_main_v79_apply, ei]
  generalize val_main_v78 (F := Ideal) _ _ _ _ _ (ix2 p q) = X
  rfl

/-- The sample: the mean plus the noise times the exponential of the log-deviation. -/
theorem sample_result (c : Dev nD) :
    W11 m ρ c (Proc.devRef .tc main_v81_0) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨p, q, rfl⟩ : ∃ (p : Fin 100000) (q : Fin 64), j = ix2 p q := ⟨j 0, j 1, eq_ix2 j⟩
  refine (congrFun (W11_arr m ρ c 5) (ix2 p q)).trans ?_
  refine (reg4_z (V10 m ρ) c _ _ _ _ _ (mean_aggregate m ρ c) (logdev_aggregate m ρ c) rfl rfl (V10_arg8 m ρ c) p q).trans ?_
  have ei : idx_main_v62 (idx_main_v63 (ix2 p q)) = ix1 q := funext fun a => Fin.ext (by match a with | ⟨0, _⟩ => rfl)
  have ej : idx_main_v79 (idx_main_v80 (ix2 p q)) = ix1 q := funext fun a => Fin.ext (by match a with | ⟨0, _⟩ => rfl)
  rw [V10_v79_apply, V10_v80_apply, val_main_v84_apply, val_main_v64_apply, val_main_v83_apply, val_main_v82_apply,
    val_main_v81_apply, val_main_v63_apply, val_main_v62_apply, val_main_v80_apply, val_main_v79_apply, ei, ej]
  generalize val_main_v61 (F := Ideal) _ _ _ _ _ (ix2 p q) = X
  generalize val_main_v78 (F := Ideal) _ _ _ _ _ (ix2 p q) = Y
  rfl

end Cert.KernelIdeal.Val

end
-- ==== Proof.lean ====
/-
  A graph-convolution encoder with a sampled latent: three dense layers (the node features by the first weight, then the
  rectified hidden array by each of the two heads' weights), each followed by the same neighbourhood aggregation —
  gather the rows at the edge sources, scale them by the symmetric degree normalisation, add them up at the edge targets,
  self-loops included — and a bias; the mean and the log-deviation are the two heads' results and the sample is
  mean + noise · exp(log-deviation).

  The kernel does the three products, the bias-and-rectify step and the final bias / exponential / sample in five
  row-blocked regions (50 blocks of 2000 rows each) and leaves the aggregations to the same host operations the reference
  uses. On the extended reals a change of float format is the identity and a product into a zero accumulator is the plain
  sum over the contracted axis, so each region's result array is the reference's stage of the same arguments, and each
  shared host stretch maps equal contents to equal contents. The claims follow stage by stage (Proof/Bridge.lean):
  the kernel's three results are the reference's mean, log-deviation and sample of the argument arrays.

  The three frames are the generated ones (the reference's is its run with the results dropped); no rewrite was made when
  the idealized kernel was printed, so the preservation claim is trivial.
-/
import proofs.«141266_j44220983280296_1_alg».proof.Defs
import proofs.«141266_j44220983280296_1_alg».proof.Proof.Gen.Kernel
import proofs.«141266_j44220983280296_1_alg».proof.Proof.Gen.Kernel.Skeleton
import proofs.«141266_j44220983280296_1_alg».proof.Proof.Gen.Kernel.Launch
import proofs.«141266_j44220983280296_1_alg».proof.Proof.Gen.Kernel.Points
import proofs.«141266_j44220983280296_1_alg».proof.Proof.Gen.Kernel.Frame
import proofs.«141266_j44220983280296_1_alg».proof.Proof.Gen.KernelIdeal
import proofs.«141266_j44220983280296_1_alg».proof.Proof.Gen.KernelIdeal.Skeleton
import proofs.«141266_j44220983280296_1_alg».proof.Proof.Gen.KernelIdeal.Launch
import proofs.«141266_j44220983280296_1_alg».proof.Proof.Gen.KernelIdeal.Points
import proofs.«141266_j44220983280296_1_alg».proof.Proof.Gen.KernelIdeal.Frame
import proofs.«141266_j44220983280296_1_alg».proof.Proof.Gen.ReferenceIdeal
import proofs.«141266_j44220983280296_1_alg».proof.Proof.Gen.Pre_finite_inputs
import proofs.«141266_j44220983280296_1_alg».proof.Proof.KRun
import proofs.«141266_j44220983280296_1_alg».proof.Proof.RefRun
import proofs.«141266_j44220983280296_1_alg».proof.Proof.RefRead
import proofs.«141266_j44220983280296_1_alg».proof.Proof.Bridge
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference's frame is its run with the three results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.ValueP.run (F := Ideal) m ρ)

open Cert.ReferenceIdeal.ReadP in
/-- Both programs end with the sample, the mean and the log-deviation at the reference's stages of the kernel's
    argument arrays: the kernel by the stage-by-stage identification of its region boundaries, the reference by its own
    run, its arguments agreeing with the kernel's. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.sample_result m ρ c),
        (h c).2.1.trans (Cert.KernelIdeal.Val.mean_result m ρ c),
        (h c).2.2.1.trans (Cert.KernelIdeal.Val.logdev_result m ρ c), (h c).2.2.2⟩)
      (Cert.KernelIdeal.Val.run_W11 (F := Ideal) m ρ)
  · refine (θ_run Cert.ReferenceIdeal.defs _ _).mono (fun r h c => ?_) (Cert.ReferenceIdeal.ValueP.run (F := Ideal) m' ρ')
    obtain ⟨e0, e1, e2, e3, e4, e5, e6, e7, e8⟩ := hagree c
    refine ⟨?_, ?_, ?_, (h c).2.2.2⟩
    · rw [(h c).1, val_main_v84_eq, e0, e1, e2, e3, e4, e5, e6, e7, e8]
    · rw [(h c).2.1, val_main_v64_eq, e0, e1, e2, e3, e4, e5]
    · rw [(h c).2.2.1, val_main_v81_eq, e0, e1, e2, e3, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
